-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x26x128 : Shape := ⟨3, ![16384, 26, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x26x128 : S_.BroadcastsInDim S16384x26x128 (![] : Fin 0 → Fin S16384x26x128.rank)
  reducesTo_S16384x26x128_S_d0_1_2 : S16384x26x128.ReducesTo [0, 1, 2] S_

variable [Facts]

def fn {F : FTy → Type} [FloatOps F] (main_arg0 : FVec F S16384x128 .f32) (main_arg1 : FVec F S16384x26x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x26x128 .f32 := Host.absf main_arg1
  let main_cst_0 : FVec F S_ .f32 := constant S_ .f32 0x7F800000#32
  let main_v5 : FVec F S16384x26x128 .f32 := broadcastInDim S16384x26x128 ![] bcast_S_S16384x26x128 main_cst_0
  let main_v6 : IVec S16384x26x128 1 := cmpf .olt main_v4 main_v5
  let main_c_1 : IVec S_ 1 := constantI S_ 1 1#1
  let main_v7 : IVec S_ 1 := (fun x v => Host.reduce IntOp.andi x v reducesTo_S16384x26x128_S_d0_1_2 h_S_) main_v6 main_c_1
  let main_v8 : IVec S_ 1 := andi main_v3 main_v7
  main_v8
-- ==== Kernel.lean ====
abbrev S16384x128 : Shape := ⟨2, ![16384, 128]⟩
abbrev S16384x26x128 : Shape := ⟨3, ![16384, 26, 128]⟩
abbrev S16384x351 : Shape := ⟨2, ![16384, 351]⟩
abbrev S512x128 : Shape := ⟨2, ![512, 128]⟩
abbrev S512x26x128 : Shape := ⟨3, ![512, 26, 128]⟩
abbrev S512x351 : Shape := ⟨2, ![512, 351]⟩
abbrev S512x1x128 : Shape := ⟨3, ![512, 1, 128]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x26x128, .f32⟩
  | .hbm, ⟨2, _⟩ => ⟨S16384x351, .f32⟩
  | .local _ .vmem, ⟨0, _⟩ => ⟨S512x128, .f32⟩
  | .local _ .vmem, ⟨1, _⟩ => ⟨S512x128, .f32⟩
  | .local _ .vmem, ⟨2, _⟩ => ⟨S512x26x128, .f32⟩
  | .local _ .vmem, ⟨3, _⟩ => ⟨S512x26x128, .f32⟩
  | .local _ .vmem, ⟨4, _⟩ => ⟨S512x351, .f32⟩
  | .local _ .vmem, ⟨5, _⟩ => ⟨S512x351, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x351 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S512x26x128_S512x26x128_0_0_0 : ∀ a, (![0, 0, 0] : Fin 3 → Nat) a + S512x26x128.size a ≤ S512x26x128.size a
  h_S512x26x128 : 0 < S512x26x128.numel
  slices_S512x26x128_o0_0_0_S512x1x128 : S512x26x128.Slices ![0, 0, 0] S512x1x128
  shapeCasts_S512x1x128_S512x128 : S512x1x128.ShapeCasts S512x128
  slices_S512x26x128_o0_1_0_S512x1x128 : S512x26x128.Slices ![0, 1, 0] S512x1x128
  slices_S512x26x128_o0_2_0_S512x1x128 : S512x26x128.Slices ![0, 2, 0] S512x1x128
  slices_S512x26x128_o0_3_0_S512x1x128 : S512x26x128.Slices ![0, 3, 0] S512x1x128
  slices_S512x26x128_o0_4_0_S512x1x128 : S512x26x128.Slices ![0, 4, 0] S512x1x128
  slices_S512x26x128_o0_5_0_S512x1x128 : S512x26x128.Slices ![0, 5, 0] S512x1x128
  slices_S512x26x128_o0_6_0_S512x1x128 : S512x26x128.Slices ![0, 6, 0] S512x1x128
  slices_S512x26x128_o0_7_0_S512x1x128 : S512x26x128.Slices ![0, 7, 0] S512x1x128
  slices_S512x26x128_o0_8_0_S512x1x128 : S512x26x128.Slices ![0, 8, 0] S512x1x128
  slices_S512x26x128_o0_9_0_S512x1x128 : S512x26x128.Slices ![0, 9, 0] S512x1x128
  slices_S512x26x128_o0_10_0_S512x1x128 : S512x26x128.Slices ![0, 10, 0] S512x1x128
  slices_S512x26x128_o0_11_0_S512x1x128 : S512x26x128.Slices ![0, 11, 0] S512x1x128
  slices_S512x26x128_o0_12_0_S512x1x128 : S512x26x128.Slices ![0, 12, 0] S512x1x128
  slices_S512x26x128_o0_13_0_S512x1x128 : S512x26x128.Slices ![0, 13, 0] S512x1x128
  slices_S512x26x128_o0_14_0_S512x1x128 : S512x26x128.Slices ![0, 14, 0] S512x1x128
  slices_S512x26x128_o0_15_0_S512x1x128 : S512x26x128.Slices ![0, 15, 0] S512x1x128
  slices_S512x26x128_o0_16_0_S512x1x128 : S512x26x128.Slices ![0, 16, 0] S512x1x128
  slices_S512x26x128_o0_17_0_S512x1x128 : S512x26x128.Slices ![0, 17, 0] S512x1x128
  slices_S512x26x128_o0_18_0_S512x1x128 : S512x26x128.Slices ![0, 18, 0] S512x1x128
  slices_S512x26x128_o0_19_0_S512x1x128 : S512x26x128.Slices ![0, 19, 0] S512x1x128
  slices_S512x26x128_o0_20_0_S512x1x128 : S512x26x128.Slices ![0, 20, 0] S512x1x128
  slices_S512x26x128_o0_21_0_S512x1x128 : S512x26x128.Slices ![0, 21, 0] S512x1x128
  slices_S512x26x128_o0_22_0_S512x1x128 : S512x26x128.Slices ![0, 22, 0] S512x1x128
  slices_S512x26x128_o0_23_0_S512x1x128 : S512x26x128.Slices ![0, 23, 0] S512x1x128
  slices_S512x26x128_o0_24_0_S512x1x128 : S512x26x128.Slices ![0, 24, 0] S512x1x128
  slices_S512x26x128_o0_25_0_S512x1x128 : S512x26x128.Slices ![0, 25, 0] S512x1x128
  reduces_S512x128_S512 : S512x128.Reduces [1] S512
  shapeCasts_S512_S512x1 : S512.ShapeCasts S512x1
  concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x351_d1 : Shape.Concatenates (S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: []) S512x351 1
  inb_S512x351_S512x351_0_0 : ∀ a, (![0, 0] : Fin 2 → Nat) a + S512x351.size a ≤ S512x351.size a
  h_S512x351 : 0 < S512x351.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x128.size a ≤ S16384x26x128.size a
  hwx0_1 : ∀ i : grid0.Coords, EltTy.bits .f32 = 32 ∨ (Rect.block (s := S16384x26x128) S512x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x351.size a ≤ S16384x351.size a
  hwx0_2 : ∀ i : grid0.Coords, EltTy.bits .f32 = 32 ∨ (Rect.block (s := S16384x351) S512x351.size (cc0_transform_2 i) (hinb0_2 i)).WholeWords (EltTy.packing .f32)

variable [Facts₀]

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x351.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x26x128 : Shape := ⟨3, ![16384, 26, 128]⟩
abbrev S16384x1x128 : Shape := ⟨3, ![16384, 1, 128]⟩
abbrev S16384x27x128 : Shape := ⟨3, ![16384, 27, 128]⟩
abbrev S16384x27x27 : Shape := ⟨3, ![16384, 27, 27]⟩
abbrev S_ : Shape := ⟨0, ![]⟩
abbrev S27x27 : Shape := ⟨2, ![27, 27]⟩
abbrev S729 : Shape := ⟨1, ![729]⟩
abbrev S351 : Shape := ⟨1, ![351]⟩
abbrev S729x1 : Shape := ⟨2, ![729, 1]⟩
abbrev S351x1 : Shape := ⟨2, ![351, 1]⟩
abbrev S351x2 : Shape := ⟨2, ![351, 2]⟩
abbrev S16384x351 : Shape := ⟨2, ![16384, 351]⟩

abbrev nBuf : Space → Nat
  | .hbm => 140
  | .vmem => 0
  | .smem => 0
  | _ => 0

abbrev hbmTy0_0 (i : Nat) : BufTy := match i % 128 with
  | 0 => ⟨S16384x128, .f32⟩
  | 1 => ⟨S16384x26x128, .f32⟩
  | 2 => ⟨S16384x1x128, .f32⟩
  | 3 => ⟨S16384x27x128, .f32⟩
  | 4 => ⟨S16384x27x27, .f32⟩
  | 5 => ⟨S_, .f32⟩
  | 6 => ⟨S27x27, .f32⟩
  | 7 => ⟨S27x27, .i32⟩
  | 8 => ⟨S_, .i32⟩
  | 9 => ⟨S27x27, .i32⟩
  | 10 => ⟨S27x27, .i32⟩
  | 11 => ⟨S27x27, .i32⟩
  | 12 => ⟨S27x27, .i1⟩
  | 13 => ⟨S_, .f32⟩
  | 14 => ⟨S27x27, .f32⟩
  | 15 => ⟨S27x27, .f32⟩
  | 16 => ⟨S_, .f32⟩
  | 17 => ⟨S27x27, .f32⟩
  | 18 => ⟨S27x27, .i1⟩
  | 19 => ⟨S729, .i1⟩
  | 20 => ⟨S729, .i32⟩
  | 21 => ⟨S_, .i32⟩
  | 22 => ⟨S_, .i32⟩
  | 23 => ⟨S729, .i32⟩
  | 24 => ⟨S_, .i32⟩
  | 25 => ⟨S351, .i32⟩
  | 26 => ⟨S_, .i32⟩
  | 27 => ⟨S_, .i32⟩
  | 28 => ⟨S729, .i32⟩
  | 29 => ⟨S729, .i32⟩
  | 30 => ⟨S_, .i32⟩
  | 31 => ⟨S729, .i32⟩
  | 32 => ⟨S729, .i1⟩
  | 33 => ⟨S_, .i32⟩
  | 34 => ⟨S729, .i32⟩
  | 35 => ⟨S729, .i32⟩
  | 36 => ⟨S729, .i32⟩
  | 37 => ⟨S729x1, .i32⟩
  | 38 => ⟨S_, .i32⟩
  | 39 => ⟨S729, .i32⟩
  | 40 => ⟨S351, .i32⟩
  | 41 => ⟨S_, .i32⟩
  | 42 => ⟨S_, .i32⟩
  | 43 => ⟨S351, .i32⟩
  | 44 => ⟨S_, .i32⟩
  | 45 => ⟨S351, .i32⟩
  | 46 => ⟨S351, .i32⟩
  | 47 => ⟨S351, .i32⟩
  | 48 => ⟨S_, .i32⟩
  | 49 => ⟨S351, .i32⟩
  | 50 => ⟨S351, .i1⟩
  | 51 => ⟨S351, .i32⟩
  | 52 => ⟨S351, .i32⟩
  | 53 => ⟨S_, .i32⟩
  | 54 => ⟨S351, .i32⟩
  | 55 => ⟨S351, .i1⟩
  | 56 => ⟨S351, .i1⟩
  | 57 => ⟨S_, .i32⟩
  | 58 => ⟨S351, .i32⟩
  | 59 => ⟨S351, .i32⟩
  | 60 => ⟨S351, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S351, .i32⟩
  | 68 => ⟨S351, .i32⟩
  | 69 => ⟨S_, .i32⟩
  | 70 => ⟨S351, .i32⟩
  | 71 => ⟨S351, .i1⟩
  | 72 => ⟨S_, .i32⟩
  | 73 => ⟨S351, .i32⟩
  | 74 => ⟨S351, .i1⟩
  | 75 => ⟨S_, .i32⟩
  | 76 => ⟨S_, .i1⟩
  | 77 => ⟨S351, .i1⟩
  | 78 => ⟨S351, .i1⟩
  | 79 => ⟨S351, .i1⟩
  | 80 => ⟨S351, .i32⟩
  | 81 => ⟨S351, .i32⟩
  | 82 => ⟨S351, .i32⟩
  | 83 => ⟨S_, .i32⟩
  | 84 => ⟨S351, .i32⟩
  | 85 => ⟨S351, .i32⟩
  | 86 => ⟨S351, .i32⟩
  | 87 => ⟨S_, .i32⟩
  | 88 => ⟨S351, .i32⟩
  | 89 => ⟨S351, .i1⟩
  | 90 => ⟨S351, .i32⟩
  | 91 => ⟨S351, .i32⟩
  | 92 => ⟨S_, .i32⟩
  | 93 => ⟨S351, .i32⟩
  | 94 => ⟨S351, .i1⟩
  | 95 => ⟨S351, .i1⟩
  | 96 => ⟨S_, .i32⟩
  | 97 => ⟨S351, .i32⟩
  | 98 => ⟨S351, .i32⟩
  | 99 => ⟨S351, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S351, .i32⟩
  | 107 => ⟨S351, .i32⟩
  | 108 => ⟨S_, .i32⟩
  | 109 => ⟨S351, .i32⟩
  | 110 => ⟨S351, .i1⟩
  | 111 => ⟨S_, .i32⟩
  | 112 => ⟨S351, .i32⟩
  | 113 => ⟨S351, .i1⟩
  | 114 => ⟨S_, .i32⟩
  | 115 => ⟨S_, .i1⟩
  | 116 => ⟨S351, .i1⟩
  | 117 => ⟨S351, .i1⟩
  | 118 => ⟨S351, .i1⟩
  | 119 => ⟨S351, .i32⟩
  | 120 => ⟨S351, .i32⟩
  | 121 => ⟨S351, .i32⟩
  | 122 => ⟨S_, .i32⟩
  | 123 => ⟨S351, .i32⟩
  | 124 => ⟨S351, .i1⟩
  | 125 => ⟨S_, .i32⟩
  | 126 => ⟨S351, .i32⟩
  | 127 => ⟨S351, .i32⟩
  | _ => ⟨S16384x128, .f32⟩

abbrev hbmTy0_1 (i : Nat) : BufTy := match i % 128 with
  | 0 => ⟨S351, .i32⟩
  | 1 => ⟨S_, .i32⟩
  | 2 => ⟨S351, .i32⟩
  | 3 => ⟨S351, .i1⟩
  | 4 => ⟨S_, .i32⟩
  | 5 => ⟨S351, .i32⟩
  | 6 => ⟨S351, .i32⟩
  | 7 => ⟨S351, .i32⟩
  | 8 => ⟨S351x1, .i32⟩
  | 9 => ⟨S351x1, .i32⟩
  | 10 => ⟨S351x2, .i32⟩
  | 11 => ⟨S16384x351, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_call0_c : Ref sig .tc := ⟨.hbm, 21, rfl⟩
abbrev main_call1_call0_v0 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_call3_call0_c : Ref sig .tc := ⟨.hbm, 41, rfl⟩
abbrev main_call3_call0_v0 : Ref sig .tc := ⟨.hbm, 42, rfl⟩
abbrev main_v18 : Ref sig .tc := ⟨.hbm, 43, rfl⟩
abbrev main_c_5 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_v6 : Ref sig .tc := ⟨.hbm, 51, rfl⟩
abbrev main_call4_v7 : Ref sig .tc := ⟨.hbm, 52, rfl⟩
abbrev main_call4_c : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_c_0 : Ref sig .tc := ⟨.hbm, 57, rfl⟩
abbrev main_call4_v11 : Ref sig .tc := ⟨.hbm, 58, rfl⟩
abbrev main_call4_v12 : Ref sig .tc := ⟨.hbm, 59, rfl⟩
abbrev main_v19 : Ref sig .tc := ⟨.hbm, 60, rfl⟩
abbrev main_c_6 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_1 : Ref sig .tc := ⟨.hbm, 69, rfl⟩
abbrev main_call5_v5 : Ref sig .tc := ⟨.hbm, 70, rfl⟩
abbrev main_call5_v6 : Ref sig .tc := ⟨.hbm, 71, rfl⟩
abbrev main_call5_c_2 : Ref sig .tc := ⟨.hbm, 72, rfl⟩
abbrev main_call5_v7 : Ref sig .tc := ⟨.hbm, 73, rfl⟩
abbrev main_call5_v8 : Ref sig .tc := ⟨.hbm, 74, rfl⟩
abbrev main_call5_c_3 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_v20 : Ref sig .tc := ⟨.hbm, 82, rfl⟩
abbrev main_c_7 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_c : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_0 : Ref sig .tc := ⟨.hbm, 96, rfl⟩
abbrev main_call6_v11 : Ref sig .tc := ⟨.hbm, 97, rfl⟩
abbrev main_call6_v12 : Ref sig .tc := ⟨.hbm, 98, rfl⟩
abbrev main_v21 : Ref sig .tc := ⟨.hbm, 99, rfl⟩
abbrev main_c_8 : Ref sig .tc := ⟨.hbm, 100, rfl⟩
abbrev main_call7_v0 : Ref sig .tc := ⟨.hbm, 101, rfl⟩
abbrev main_call7_c : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_1 : Ref sig .tc := ⟨.hbm, 108, rfl⟩
abbrev main_call7_v5 : Ref sig .tc := ⟨.hbm, 109, rfl⟩
abbrev main_call7_v6 : Ref sig .tc := ⟨.hbm, 110, rfl⟩
abbrev main_call7_c_2 : Ref sig .tc := ⟨.hbm, 111, rfl⟩
abbrev main_call7_v7 : Ref sig .tc := ⟨.hbm, 112, rfl⟩
abbrev main_call7_v8 : Ref sig .tc := ⟨.hbm, 113, rfl⟩
abbrev main_call7_c_3 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_v12 : Ref sig .tc := ⟨.hbm, 118, rfl⟩
abbrev main_call7_v13 : Ref sig .tc := ⟨.hbm, 119, rfl⟩
abbrev main_call7_v14 : Ref sig .tc := ⟨.hbm, 120, rfl⟩
abbrev main_v22 : Ref sig .tc := ⟨.hbm, 121, rfl⟩
abbrev main_c_9 : Ref sig .tc := ⟨.hbm, 122, rfl⟩
abbrev main_v23 : Ref sig .tc := ⟨.hbm, 123, rfl⟩
abbrev main_v24 : Ref sig .tc := ⟨.hbm, 124, rfl⟩
abbrev main_c_10 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩

abbrev nD : Nat := 1
abbrev τ : Topo := Topo.v7x

variable {F : FTy → Type} [FloatOps F]

class Facts₀ : Prop where
  bcast_S16384x128_S16384x1x128_0_2 : S16384x128.BroadcastsInDim S16384x1x128 (![0, 2] : Fin 2 → Fin S16384x1x128.rank)
  concatenates_S16384x1x128_S16384x26x128_S16384x27x128_d1 : Shape.Concatenates [S16384x1x128, S16384x26x128] S16384x27x128 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  h_S_ : 0 < S_.numel
  bcast_S_S351 : S_.BroadcastsInDim S351 (![] : Fin 0 → Fin S351.rank)
  bcast_S_S729 : S_.BroadcastsInDim S729 (![] : Fin 0 → Fin S729.rank)
  bcast_S729_S729x1_0 : S729.BroadcastsInDim S729x1 (![0] : Fin 1 → Fin S729x1.rank)
  reduceWindows_S351_S351_w351s1p350_0 : S351.ReduceWindows (![351] : Fin 1 → Nat) ![1] ![350] ![0] S351
  bcast_S351_S351x1_0 : S351.BroadcastsInDim S351x1 (![0] : Fin 1 → Fin S351x1.rank)
  concatenates_S351x1_S351x1_S351x2_d1 : Shape.Concatenates [S351x1, S351x1] S351x2 1
  dot_S16384x27x128_S16384x27x128_S16384x27x27_2_2_1_1_0_0_wf : DotDims.WF S16384x27x128 S16384x27x128 S16384x27x27 [2] [2] [1] [1] [0] [0]
  scatter_S351_S729x1_S729_n_0_0_1_wf : ScatterDims.WF S351 S729x1 S729 [] [0] [0] 1
  gather_S16384x27x27_S351x2_S16384x351_0_12_n_n_12_1_1638411_wf : GatherDims.WF S16384x27x27 S351x2 S16384x351 [0] [1, 2] [] [1, 2] [] 1 ![16384, 1, 1]

variable [Facts₀]

def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def scatter_S351_S729x1_S729_n_0_0_1 : ScatterDims S351 S729x1 S729 where
  updateWindowDims := []
  insertedWindowDims := [0]
  scatterDimsToOperandDims := [0]
  indexVectorDim := 1
  wf := scatter_S351_S729x1_S729_n_0_0_1_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf

class Facts : Prop extends Facts₀ where

variable [Facts]
-- ==== Proof.Spec.lean ====
/-
  What both programs compute, as one function of the two argument arrays.

  Per batch row `b` there are 27 feature vectors of length 128: feature 0 is the dense row, feature `i + 1` is
  embedding `i`. The result's column `k` (of 351 = 27·26/2) is the dot product of features `i < j`, the pairs taken
  in row-major order of the strict upper triangle of the 27 × 27 grid. The pair of column `k` is named through its
  flat position `27·i + j`: `triuPos` lists those positions in increasing order, so that `pos k` is the `k`-th one.
-/
import Idealize.ShloMosaic.PureOps.Ideal
import Idealize.ShloMosaic.Lib.ValueIdx

noncomputable section

namespace Cert.Interaction

open Idealize.ShloMosaic Idealize.ShloMosaic.ValueIdx

/-- Flat positions `27·i + j` with `i < j` of a 27 × 27 grid, in increasing order. -/
def triuPos : List Nat := (List.range 729).filter fun p => decide (p / 27 < p % 27)

theorem triuPos_length : triuPos.length = 351 := by decide +kernel

/-- The `k`-th position of the strict upper triangle. -/
def pos (k : Fin 351) : Nat := triuPos[k.val]'(by rw [triuPos_length]; exact k.isLt)

theorem pos_mem (k : Fin 351) : pos k ∈ triuPos := List.getElem_mem _

theorem mem_triuPos {p : Nat} : p ∈ triuPos ↔ p < 729 ∧ p / 27 < p % 27 := by
  unfold triuPos
  rw [List.mem_filter, List.mem_range, decide_eq_true_eq]

theorem pos_lt (k : Fin 351) : pos k < 729 := (mem_triuPos.1 (pos_mem k)).1

theorem pos_tri (k : Fin 351) : pos k / 27 < pos k % 27 := (mem_triuPos.1 (pos_mem k)).2

/-- The smaller feature of column `k`'s pair. -/
def rowOf (k : Fin 351) : Fin 27 := ⟨pos k / 27, by have := pos_lt k; omega⟩

/-- The larger feature of column `k`'s pair. -/
def colOf (k : Fin 351) : Fin 27 := ⟨pos k % 27, Nat.mod_lt _ (by decide)⟩

/-- Entry `d` of feature `i` of batch row `b`: the dense row for `i = 0`, embedding `i - 1` otherwise. -/
def feat (a0 : FVec Ideal ⟨2, ![16384, 128]⟩ .f32) (a1 : FVec Ideal ⟨3, ![16384, 26, 128]⟩ .f32)
    (b : Fin 16384) (i : Fin 27) (d : Fin 128) : EReal :=
  if h : i.val = 0 then a0 (ix2 b d) else a1 (ix3 b ⟨i.val - 1, by have := i.isLt; omega⟩ d)

/-- The interaction of batch row `b` in column `k`: the dot product of the two features of the `k`-th pair. -/
def inter (a0 : FVec Ideal ⟨2, ![16384, 128]⟩ .f32) (a1 : FVec Ideal ⟨3, ![16384, 26, 128]⟩ .f32)
    (b : Fin 16384) (k : Fin 351) : EReal :=
  ∑ d : Fin 128, feat a0 a1 b (rowOf k) d * feat a0 a1 b (colOf k) d

/-- The whole result array. -/
def G (a0 : FVec Ideal ⟨2, ![16384, 128]⟩ .f32) (a1 : FVec Ideal ⟨3, ![16384, 26, 128]⟩ .f32) :
    FVec Ideal ⟨2, ![16384, 351]⟩ .f32 :=
  fun j => inter a0 a1 ⟨(j 0).val, idx2_lt0 j⟩ ⟨(j 1).val, idx2_lt1 j⟩

theorem G_ix2 (a0 : FVec Ideal ⟨2, ![16384, 128]⟩ .f32) (a1 : FVec Ideal ⟨3, ![16384, 26, 128]⟩ .f32)
    (b : Fin 16384) (k : Fin 351) : G a0 a1 (ix2 b k) = inter a0 a1 b k := rfl

end Cert.Interaction

end
-- ==== Proof.KerBlock.lean ====
/-
  What the kernel body leaves in one output block, entry by entry. A block holds 512 batch rows; its input blocks are
  the 512 dense rows `x0` and the 512 × 26 embedding rows `x1`. The body cuts the 26 embedding rows out of `x1`, forms for
  every pair of features `i < j` (in row-major order of the pairs) the lane sum of their product as a 512 × 1 column,
  and stores the 351 columns side by side: entry `(r, k)` of the block is the dot product of the two features of the
  `k`-th pair of row `r`.
-/
import proofs.«154655_j39891656245395_1_alg».proof.Proof.FrameKI
import proofs.«154655_j39891656245395_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.Interaction

/-- Entry `d` of feature `i` of row `r` of a block: the dense row for `i = 0`, embedding `i - 1` otherwise. -/
def bfeat (x0 : Vec Ideal S512x128 .f32) (x1 : Vec Ideal S512x26x128 .f32) (r : Fin 512) (i : Fin 27) (d : Fin 128) : EReal :=
  if h : i.val = 0 then x0 (ix2 r d) else x1 (ix3 r ⟨i.val - 1, by have := i.isLt; omega⟩ d)

namespace Block

/-! ## Three readings of layout operations at an index -/

section Layout
variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of an `[a, b]` array, read at row `r`: the sum over the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src ?_
  funext c
  apply Fin.ext
  match c with
  | ⟨0, _⟩ => rfl
  | ⟨1, _⟩ => rfl

/-- Row `e` of the middle axis of an `[a, n, b]` array, cut out as `[a, 1, b]` and cast to `[a, b]`, reads at `(r, d)`
    the array at `(r, e, d)`. -/
theorem sliceRow_apply {a n b : ℕ} (e : ℕ) (he : e < n) (x : (⟨3, ![a, n, b]⟩ : Shape).Idx → α)
    (hs : (⟨3, ![a, n, b]⟩ : Shape).Slices ![0, e, 0] ⟨3, ![a, 1, b]⟩)
    (hc : (⟨3, ![a, 1, b]⟩ : Shape).ShapeCasts ⟨2, ![a, b]⟩) (r : Fin a) (d : Fin b) :
    shapeCast ⟨2, ![a, b]⟩ (extractStridedSlice ⟨3, ![a, 1, b]⟩ ![0, e, 0] x hs) hc (ix2 r d) = x (ix3 r ⟨e, he⟩ d) := by
  refine (shapeCast_apply _ hc (ix2 r d) (ix3 r (0 : Fin 1) d) ?_).trans ?_
  · rw [Shape.rowMajor_val_three, Shape.rowMajor_val_two]
    show (r.val * 1 + 0) * b + d.val = r.val * b + d.val
    rw [Nat.mul_one, Nat.add_zero]
  · refine extractStridedSlice_apply _ x hs _ _ fun c => ?_
    match c with
    | ⟨0, _⟩ => show r.val = 0 + r.val; omega
    | ⟨1, _⟩ => show e = e + 0; omega
    | ⟨2, _⟩ => show d.val = 0 + d.val; omega

end Layout

/-! ## The block as one concatenation over the pairs

The 27 features of a block as the body names them, and the column the body forms of two of them; the stored value is
the concatenation, over the positions of the strict upper triangle in increasing order, of the columns of their pairs. -/

section Pieces
variable {F : FTy → Type} [FloatOps F]

/-- Feature `n` of the block as the body forms it: the dense block itself, or embedding row `n - 1` cut out of `x1`. -/
def fv (x0 : Vec F S512x128 .f32) (x1 : Vec F S512x26x128 .f32) : Nat → FVec F S512x128 .f32
  | 0 => View.ld x0 r0_0
  | 1 => k0_pay2 (View.ld x1 r0_1)
  | 2 => k0_pay3 (View.ld x1 r0_1)
  | 3 => k0_pay4 (View.ld x1 r0_1)
  | 4 => k0_pay5 (View.ld x1 r0_1)
  | 5 => k0_pay6 (View.ld x1 r0_1)
  | 6 => k0_pay7 (View.ld x1 r0_1)
  | 7 => k0_pay8 (View.ld x1 r0_1)
  | 8 => k0_pay9 (View.ld x1 r0_1)
  | 9 => k0_pay10 (View.ld x1 r0_1)
  | 10 => k0_pay11 (View.ld x1 r0_1)
  | 11 => k0_pay12 (View.ld x1 r0_1)
  | 12 => k0_pay13 (View.ld x1 r0_1)
  | 13 => k0_pay14 (View.ld x1 r0_1)
  | 14 => k0_pay15 (View.ld x1 r0_1)
  | 15 => k0_pay16 (View.ld x1 r0_1)
  | 16 => k0_pay17 (View.ld x1 r0_1)
  | 17 => k0_pay18 (View.ld x1 r0_1)
  | 18 => k0_pay19 (View.ld x1 r0_1)
  | 19 => k0_pay20 (View.ld x1 r0_1)
  | 20 => k0_pay21 (View.ld x1 r0_1)
  | 21 => k0_pay22 (View.ld x1 r0_1)
  | 22 => k0_pay23 (View.ld x1 r0_1)
  | 23 => k0_pay24 (View.ld x1 r0_1)
  | 24 => k0_pay25 (View.ld x1 r0_1)
  | 25 => k0_pay26 (View.ld x1 r0_1)
  | 26 => k0_pay27 (View.ld x1 r0_1)
  | _ => View.ld x0 r0_0

/-- The column of two features: the lane sum of their product, as a 512 × 1 column. -/
def col (a b : FVec F S512x128 .f32) : FVec F S512x1 .f32 :=
  shapeCast S512x1 (multiReduction .add [1] S512 (mulf a b) 0x00000000#32 reduces_S512x128_S512 (.inl rfl) rfl)
    shapeCasts_S512_S512x1

/-- The 351 columns in the order of the pairs. -/
def pieces (x0 : Vec F S512x128 .f32) (x1 : Vec F S512x26x128 .f32) : List ((s : Shape) × (s.Idx → F .f32)) :=
  triuPos.map fun p => ⟨S512x1, col (fv x0 x1 (p / 27)) (fv x0 x1 (p % 27))⟩

theorem pieces_length (x0 : Vec F S512x128 .f32) (x1 : Vec F S512x26x128 .f32) : (pieces x0 x1).length = 351 := by
  unfold pieces
  rw [List.length_map, triuPos_length]

theorem pieces_shapes (x0 : Vec F S512x128 .f32) (x1 : Vec F S512x26x128 .f32) :
    (pieces x0 x1).map (·.1) = List.replicate 351 S512x1 := by
  unfold pieces
  rw [List.map_map]
  show triuPos.map (fun _ => S512x1) = _
  rw [List.map_const', triuPos_length]

theorem replicate_concatenates : Shape.Concatenates (List.replicate 351 S512x1) S512x351 1 := by decide +kernel

theorem pieces_concatenates (x0 : Vec F S512x128 .f32) (x1 : Vec F S512x26x128 .f32) :
    Shape.Concatenates ((pieces x0 x1).map (·.1)) S512x351 1 := by
  rw [pieces_shapes]; exact replicate_concatenates

/-- The value the body stores, as the concatenation of the columns. -/
def blockVal (x0 : Vec F S512x128 .f32) (x1 : Vec F S512x26x128 .f32) : FVec F S512x351 .f32 :=
  concatenate S512x351 1 (pieces x0 x1) (pieces_concatenates x0 x1)

set_option maxRecDepth 100000 in
set_option maxHeartbeats 4000000 in
/-- The body's one store holds that concatenation: its 351 operands are, entry by entry, the columns of the pairs at the
    positions `triuPos` lists. -/
theorem out_eq_blockVal (x0 : Vec F S512x128 .f32) (x1 : Vec F S512x26x128 .f32) :
    out0_2 x0 x1 = View.canon [⟨r0_2, blockVal x0 x1⟩] := by
  unfold out0_2 k0_pay1 blockVal pieces
  rfl

theorem pieces_pre (x0 : Vec F S512x128 .f32) (x1 : Vec F S512x26x128 .f32) (k : Nat) (hk : k ≤ 351) :
    ((((pieces x0 x1).take k).map (·.1)).map fun s : Shape =>
      if h : s.rank = S512x351.rank then s.size ((1 : Fin S512x351.rank).cast h.symm) else 0).sum = k := by
  rw [List.map_take, pieces_shapes, List.take_replicate, List.map_replicate, List.sum_replicate, Nat.min_eq_left hk]
  show k • 1 = k
  simp

/-- Column `k` of the concatenation is the column of the `k`-th pair: every piece before it is one column wide. -/
theorem blockVal_apply (x0 : Vec F S512x128 .f32) (x1 : Vec F S512x26x128 .f32) (r : Fin 512) (k : Fin 351) :
    blockVal x0 x1 (ix2 r k) = col (fv x0 x1 (pos k / 27)) (fv x0 x1 (pos k % 27)) (ix2 r (0 : Fin 1)) := by
  have hk : k.val < (pieces x0 x1).length := by rw [pieces_length]; exact k.isLt
  unfold blockVal
  refine concatenate_apply_piece (1 : Fin S512x351.rank) (pieces x0 x1) _ (ix2 r k) k.val hk S512x1 _ ?hxk rfl k.val
    (pieces_pre x0 x1 k.val (Nat.le_of_lt k.isLt)) (ix2 r (0 : Fin 1)) ?hi ?ha
  case hxk => exact List.getElem_map _
  case hi =>
    intro b hb
    match b with
    | ⟨0, _⟩ => rfl
    | ⟨1, _⟩ => exact absurd (Fin.ext rfl) hb
  case ha => rfl

end Pieces

/-! ## The columns and the features at the ideal values -/

theorem hz2 : (![0, 0] : Fin 2 → Nat) = fun _ => 0 := funext fun a => by fin_cases a <;> rfl

theorem hz3 : (![0, 0, 0] : Fin 3 → Nat) = fun _ => 0 := funext fun a => by fin_cases a <;> rfl

/-- A column at row `r` is the dot product of the two features' rows. -/
theorem col_apply (a b : FVec Ideal S512x128 .f32) (r : Fin 512) (u : Fin 1) :
    col a b (ix2 r u) = ∑ d : Fin 128, a (ix2 r d) * b (ix2 r d) := by
  unfold col
  refine (shapeCast_a_a1_apply _ _ r u).trans ?_
  refine (laneSum_apply (mulf a b) _ _ _ _ r).trans ?_
  rfl

/-- Embedding row `e` as the body cuts it out of a 512 × 26 × 128 block, at `(r, d)`. -/
theorem emb_apply (v1 : Vec Ideal S512x26x128 .f32) (e : ℕ) (he : e < 26)
    (hs : S512x26x128.Slices ![0, e, 0] S512x1x128) (r : Fin 512) (d : Fin 128) :
    shapeCast S512x128 (extractStridedSlice S512x1x128 ![0, e, 0] v1 hs) shapeCasts_S512x1x128_S512x128 (ix2 r d)
      = v1 (ix3 r ⟨e, he⟩ d) :=
  sliceRow_apply e he v1 hs _ r d

/-- The body's feature `i` is the block's feature `i`. -/
theorem fv_apply (x0 : Vec Ideal S512x128 .f32) (x1 : Vec Ideal S512x26x128 .f32) (r : Fin 512) (d : Fin 128)
    (i : Fin 27) : fv x0 x1 i.val (ix2 r d) = bfeat x0 x1 r i d := by
  fin_cases i
  · exact congrFun (View.ld_unit_zero (S := S512x128) hz2 _ x0) (ix2 r d)
  all_goals
    refine (emb_apply (View.ld x1 r0_1) _ (by decide) (by decide) r d).trans ?_
    exact congrFun (View.ld_unit_zero (S := S512x26x128) hz3 _ x1) _

end Block

open Block in
/-- The block the body stores, entry by entry. -/
theorem out_block_apply (x0 : Vec Ideal S512x128 .f32) (x1 : Vec Ideal S512x26x128 .f32) (r : Fin 512) (k : Fin 351) :
    out0_2 (F := Ideal) x0 x1 (ix2 r k)
      = ∑ d : Fin 128, bfeat x0 x1 r (rowOf k) d * bfeat x0 x1 r (colOf k) d := by
  rw [out_eq_blockVal, View.canon_unit_zero hz2, blockVal_apply, col_apply]
  refine Finset.sum_congr rfl fun d _ => ?_
  exact congrArg₂ (· * ·) (fv_apply x0 x1 r d (rowOf k)) (fv_apply x0 x1 r d (colOf k))

end Cert.KernelIdeal.Hand

end
-- ==== Proof.KerArray.lean ====
/-
  From blocks to the array: grid point `t` of 32 handles batch rows `512 t … 512 t + 511`, reading those rows of both
  arguments and writing those rows of the result, so the 32 blocks tile the result and the kernel's result array is
  the specification `G` of the argument arrays.
-/
import proofs.«154655_j39891656245395_1_alg».proof.Proof.FrameKI
import proofs.«154655_j39891656245395_1_alg».proof.Proof.KerBlock
import proofs.«154655_j39891656245395_1_alg».proof.Proof.Spec
import Idealize.ShloMosaic.Lib.ValueIdx
import Idealize.ShloMosaic.Lib.Pipeline.Value

noncomputable section

namespace Cert.KernelIdeal.Hand

open Idealize.ShloMosaic Idealize.ShloMosaic.TcCoe Idealize.SL.Sem Idealize.ShloMosaic.ValueIdx
open Cert.KernelIdeal Cert.KernelIdeal.Gen Cert.Interaction

section Blocks

variable (m : (ℓ : Loc nD τ sig) → Buf (Elt Ideal) ℓ)

/-! ## Where the blocks sit -/

/-- At grid point `t` each of the three windows is at block `t` along the batch axis and at block 0 along every
    other axis. -/
theorem index_at_point : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The dense argument, 16384 × 128. -/
abbrev denseArr (c : Dev nD) : FVec Ideal ⟨2, ![16384, 128]⟩ .f32 := V m c main_arg0

/-- The embedding argument, 16384 × 26 × 128. -/
abbrev embArr (c : Dev nD) : FVec Ideal ⟨3, ![16384, 26, 128]⟩ .f32 := V m c main_arg1

/-- The dense block of point `t`, 512 × 128. -/
abbrev denseBlk (c : Dev nD) (t : Fin cfg0.N) : Vec Ideal S512x128 .f32 := iblk m c 0 t

/-- The embedding block of point `t`, 512 × 26 × 128. -/
abbrev embBlk (c : Dev nD) (t : Fin cfg0.N) : Vec Ideal S512x26x128 .f32 := iblk m c 1 t

/-! ## The input blocks are rows of the arguments -/

/-- Row `r` of the dense block of point `t` is row `512 t + r` of the dense argument. -/
theorem denseBlk_apply (c : Dev nD) (t : Fin cfg0.N) (r : Fin 512) (d : Fin 128) (b : Fin 16384)
    (hb : b.val = 512 * t.val + r.val) : denseBlk m c t (ix2 r d) = denseArr m c (ix2 b d) := by
  obtain ⟨e0, e1, -⟩ := index_at_point t
  show iblk m c 0 t (ix2 r d) = _
  unfold iblk
  rw [View.read_apply]
  show V m c main_arg0 _ = V m c main_arg0 _
  congr 1
  funext a
  apply Fin.ext
  match a with
  | ⟨0, _⟩ => show win0_0.index t (0 : Fin 2) * 512 + 1 * r.val = b.val; rw [e0, hb]; omega
  | ⟨1, _⟩ => show win0_0.index t (1 : Fin 2) * 128 + 1 * d.val = d.val; rw [e1]; omega

/-- Row `r` of the embedding block of point `t` is row `512 t + r` of the embedding argument. -/
theorem embBlk_apply (c : Dev nD) (t : Fin cfg0.N) (r : Fin 512) (e : Fin 26) (d : Fin 128) (b : Fin 16384)
    (hb : b.val = 512 * t.val + r.val) : embBlk m c t (ix3 r e d) = embArr m c (ix3 b e d) := by
  obtain ⟨-, -, e0, e1, e2, -⟩ := index_at_point t
  show iblk m c 1 t (ix3 r e d) = _
  unfold iblk
  rw [View.read_apply]
  show V m c main_arg1 _ = V m c main_arg1 _
  congr 1
  funext a
  apply Fin.ext
  match a with
  | ⟨0, _⟩ => show win0_1.index t (0 : Fin 3) * 512 + 1 * r.val = b.val; rw [e0, hb]; omega
  | ⟨1, _⟩ => show win0_1.index t (1 : Fin 3) * 26 + 1 * e.val = e.val; rw [e1]; omega
  | ⟨2, _⟩ => show win0_1.index t (2 : Fin 3) * 128 + 1 * d.val = d.val; rw [e2]; omega

/-- Feature `i` of row `r` of the blocks of point `t` is feature `i` of batch row `512 t + r`. -/
theorem bfeat_blocks (c : Dev nD) (t : Fin cfg0.N) (r : Fin 512) (b : Fin 16384) (hb : b.val = 512 * t.val + r.val)
    (i : Fin 27) (d : Fin 128) :
    bfeat (denseBlk m c t) (embBlk m c t) r i d = feat (denseArr m c) (embArr m c) b i d := by
  unfold bfeat feat
  split
  · exact denseBlk_apply m c t r d b hb
  · exact embBlk_apply m c t r _ d b hb

/-! ## The block a point stores is a block of the specification -/

/-- Entry `(r, k)` of the block point `t` stores is the interaction of batch row `512 t + r` in column `k`. -/
theorem stored_entry (c : Dev nD) (t : Fin cfg0.N) (r : Fin 512) (k : Fin 351) (b : Fin 16384)
    (hb : b.val = 512 * t.val + r.val) :
    out0_2 (F := Ideal) (denseBlk m c t) (embBlk m c t) (ix2 r k) = inter (denseArr m c) (embArr m c) b k := by
  refine (out_block_apply (denseBlk m c t) (embBlk m c t) r k).trans ?_
  unfold inter
  refine Finset.sum_congr rfl fun d _ => ?_
  exact congrArg₂ (· * ·) (bfeat_blocks m c t r b hb (rowOf k) d) (bfeat_blocks m c t r b hb (colOf k) d)

/-- The block point `t` stores, at an index `y`, is the specification at any index `i` of the result whose row is
    `512 t` plus `y`'s and whose column is `y`'s. -/
theorem stored_apply (c : Dev nD) (t : Fin cfg0.N) (y : S512x351.Idx) (i : S16384x351.Idx)
    (h0 : (i 0).val = 512 * t.val + (y 0).val) (h1 : (i 1).val = (y 1).val) :
    out0_2 (F := Ideal) (denseBlk m c t) (embBlk m c t) y = G (denseArr m c) (embArr m c) i := by
  obtain ⟨r, k, rfl⟩ : ∃ (r : Fin 512) (k : Fin 351), y = ix2 r k := ⟨y 0, y 1, eq_ix2 y⟩
  obtain ⟨b, k', rfl⟩ : ∃ (b : Fin 16384) (k' : Fin 351), i = ix2 b k' := ⟨i 0, i 1, eq_ix2 i⟩
  have hb : b.val = 512 * t.val + r.val := h0
  obtain rfl : k' = k := Fin.ext h1
  rw [G_ix2]
  exact stored_entry m c t r k' b hb

/-- What point `t` writes back is block `t` of the specification of the argument arrays. -/
theorem written_eq (c : Dev nD) (t : Fin cfg0.N) :
    (dats m 0 c).flushed 2 t
      = ((cfg0.win 2).blk t).view.read (Elt Ideal) (G (denseArr m c) (embArr m c)) := by
  show (cfg0.win 2).cut (grid0.coords t) ((dats m 0 c).after 2 t) = _
  rw [after0_2]
  obtain ⟨-, -, -, -, -, e0, e1⟩ := index_at_point t
  funext y
  rw [View.read_apply]
  refine stored_apply m c t y _ ?_ ?_
  · show win0_2.index t (0 : Fin 2) * 512 + 1 * (y 0).val = 512 * t.val + (y 0).val
    rw [e0]; omega
  · show win0_2.index t (1 : Fin 2) * 351 + 1 * (y 1).val = (y 1).val
    rw [e1]; omega

/-! ## The blocks tile the result -/

/-- An index of the result is in point `t`'s block iff each coordinate is in the block's range on its axis. -/
theorem mem_result_blk (t : Fin cfg0.N) (i : S16384x351.Idx) :
    i ∈ ((cfg0.win 2).blk t).view.set ↔ ∀ a : Fin 2, win0_2.index t a * S512x351.size a ≤ (i a).val
      ∧ (i a).val < win0_2.index t a * S512x351.size a + S512x351.size a := by
  show i ∈ ((View.whole main_v0).slice (win0_2.rect t)).set ↔ _
  rw [View.set_slice_whole, Rect.mem_set_unit]
  exact Iff.rfl

/-- Batch row `b` of the result lies in the block of point `b / 512`, and every point writes its block back. -/
theorem rows_covered (i : S16384x351.Idx) :
    ∃ t : Fin cfg0.N, (cfg0.win 2).flush t = true ∧ i ∈ ((cfg0.win 2).blk t).view.set := by
  have hi0 : (i 0).val < 16384 := (i 0).isLt
  have hi1 : (i 1).val < 351 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, e0, e1⟩ := index_at_point t
  refine ⟨t, flush0_2 t, ?_⟩
  rw [mem_result_blk]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 351 ≤ (i 1).val ∧ (i 1).val < win0_2.index t (1 : Fin 2) * 351 + 351
    rw [e1]; omega

/-- The result array after the last point is the specification of the argument arrays. -/
theorem result_eq (c : Dev nD) : (dats m 0 c).arrAt 2 cfg0.N = G (denseArr m c) (embArr m c) :=
  (dats m 0 c).arrAt_eq_of_cover 2 (G (denseArr m c) (embArr m c)) (fun t _ => written_eq m c t) rows_covered

end Blocks

/-- Every weakly fair execution of the idealized kernel terminates with its result array at the specification of the
    argument arrays, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 2).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Hand

end
-- ==== Proof.RefTerm.lean ====
/-
  The reference's @main as pure terms, stage by stage.

  The float side: `T` stacks the dense row in front of the 26 embedding rows (27 features per batch row), `Z` is the
  batched Gram matrix `T · Tᵀ` (27 × 27 per batch row), and the result gathers from `Z` the entries named by the index
  table `pairIx`.

  The integer side computes that table from constants only — it is jnp's `nonzero` at a fixed size applied to the
  strict-upper-triangle mask of a 27 × 27 grid: the mask flattened to 729 words (`maskWords`), its running sum
  (`csum`: how many mask bits are set up to each position), a histogram of the running sum over 0 … 350 (`binc`), the
  running sum of the histogram (`flat`: the flat position of the k-th set bit), and the row `flat / 27 mod 27` and
  column `flat mod 27` of that position, each with the usual wrap of a negative index.
-/
import proofs.«154655_j39891656245395_1_alg».proof.ReferenceIdeal
import proofs.«154655_j39891656245395_1_alg».proof.Proof.Gen.ReferenceIdeal

noncomputable section

namespace Cert.ReferenceIdeal.Hand

open Idealize.ShloMosaic Idealize.SL.Sem Cert.ReferenceIdeal Cert.ReferenceIdeal.Facts₀

variable (F : FTy → Type) [FloatOps F]

/-! ## The index table -/

/-- A 27 × 27 array of ones with zero written where `row ≥ column`: ones on the strict upper triangle. -/
def triuOnes : FVec F S27x27 .f32 :=
  select (cmpi .sge (addi (iotaInDim S27x27 32 0) (broadcastInDim S27x27 ![] bcast_S_S27x27 (constantI S_ 32 0#32)))
      (iotaInDim S27x27 32 1))
    (broadcastInDim S27x27 ![] bcast_S_S27x27 (constant S_ .f32 0x00000000#32))
    (broadcastInDim S27x27 ![] bcast_S_S27x27 (constant S_ .f32 0x3F800000#32))

/-- Where that array is not zero. -/
def mask : IVec S27x27 1 :=
  cmpf .une (triuOnes F) (broadcastInDim S27x27 ![] bcast_S_S27x27 (constant S_ .f32 0x00000000#32))

/-- The mask flattened row by row, one 32-bit word per bit. -/
def maskWords : IVec S729 32 := extui 32 (shapeCast S729 (mask F) shapeCasts_S27x27_S729) natLt_1_32

/-- The running sum of the mask words. -/
def csum : IVec S729 32 :=
  Host.reduceWindow IntOp.addi ![729] ![1] ![728] ![0] (maskWords F)
    (broadcastInDim S_ ![] bcast_S_S_ (constantI S_ 32 0#32)) reduceWindows_S729_S729_w729s1p728_0 h_S_

/-- The running sum clipped below at zero. -/
def clipped : IVec S729 32 :=
  maxsi (broadcastInDim S729 ![] bcast_S_S729 (id (constantI S_ 32 0#32))) (csum F)

/-- A negative index wrapped by the histogram's length. -/
def wrapped : IVec S729 32 :=
  select (cmpi .slt (clipped F) (broadcastInDim S729 ![] bcast_S_S729 (constantI S_ 32 0#32)))
    (addi (clipped F) (broadcastInDim S729 ![] bcast_S_S729 (constantI S_ 32 351#32))) (clipped F)

/-- The histogram of the running sum over `0 … 350`: a one added at each position's value. -/
def binc : IVec S351 32 :=
  Host.scatter scatter_S351_S729x1_S729_n_0_0_1 IntOp.addi
    (broadcastInDim S351 ![] bcast_S_S351 (constantI S_ 32 0#32))
    (broadcastInDim S729x1 ![0] bcast_S729_S729x1_0 (wrapped F))
    (broadcastInDim S729 ![] bcast_S_S729 (constantI S_ 32 1#32))

/-- The running sum of the histogram. -/
def flat : IVec S351 32 :=
  Host.reduceWindow IntOp.addi ![351] ![1] ![350] ![0] (binc F)
    (broadcastInDim S_ ![] bcast_S_S_ (constantI S_ 32 0#32)) reduceWindows_S351_S351_w351s1p350_0 h_S_

/-- jnp's floor division of a vector by a scalar: the truncated quotient, one less where the signs differ and the
    division is not exact. -/
def floorDiv (x : IVec S351 32) (y : IVec S_ 32) : IVec S351 32 :=
  select
    (andi (cmpi .ne (signi x) (broadcastInDim S351 ![] bcast_S_S351 (signi y)))
      (cmpi .ne (Host.remsi x (broadcastInDim S351 ![] bcast_S_S351 y))
        (broadcastInDim S351 ![] bcast_S_S351 (constantI S_ 32 0#32))))
    (subi (Host.divsi x (broadcastInDim S351 ![] bcast_S_S351 y))
      (broadcastInDim S351 ![] bcast_S_S351 (constantI S_ 32 1#32)))
    (Host.divsi x (broadcastInDim S351 ![] bcast_S_S351 y))

/-- The divisor jnp's remainder uses: one in place of zero. -/
def safeDivisor (y : IVec S_ 32) : IVec S_ 32 :=
  select (cmpi .eq (id y) (constantI S_ 32 0#32)) (constantI S_ 32 1#32) (id y)

/-- jnp's remainder of a vector by a scalar: the truncated remainder, the divisor added where it is not zero and its
    sign differs from the divisor's. -/
def remainder (x : IVec S351 32) (y : IVec S_ 32) : IVec S351 32 :=
  select
    (andi
      (cmpi .ne
        (cmpi .slt (Host.remsi x (broadcastInDim S351 ![] bcast_S_S351 (safeDivisor y)))
          (broadcastInDim S351 ![] bcast_S_S351 (constantI S_ 32 0#32)))
        (broadcastInDim S351 ![] bcast_S_S351 (cmpi .slt (safeDivisor y) (constantI S_ 32 0#32))))
      (cmpi .ne (Host.remsi x (broadcastInDim S351 ![] bcast_S_S351 (safeDivisor y)))
        (broadcastInDim S351 ![] bcast_S_S351 (constantI S_ 32 0#32))))
    (addi (Host.remsi x (broadcastInDim S351 ![] bcast_S_S351 (safeDivisor y)))
      (broadcastInDim S351 ![] bcast_S_S351 (safeDivisor y)))
    (Host.remsi x (broadcastInDim S351 ![] bcast_S_S351 (safeDivisor y)))

/-- A negative index wrapped by the grid's side. -/
def wrap27 (x : IVec S351 32) : IVec S351 32 :=
  select (cmpi .slt x (broadcastInDim S351 ![] bcast_S_S351 (constantI S_ 32 0#32)))
    (addi x (broadcastInDim S351 ![] bcast_S_S351 (constantI S_ 32 27#32))) x

/-- The row of the k-th set bit. -/
def rowIx : IVec S351 32 :=
  wrap27 (remainder (floorDiv (flat F) (constantI S_ 32 27#32)) (constantI S_ 32 27#32))

/-- The column of the k-th set bit. -/
def colIx : IVec S351 32 :=
  wrap27 (remainder (floorDiv (flat F) (constantI S_ 32 1#32)) (constantI S_ 32 27#32))

/-- The table of (row, column) pairs. -/
def pairIx : IVec S351x2 32 :=
  concatenate S351x2 1
    [⟨S351x1, broadcastInDim S351x1 ![0] bcast_S351_S351x1_0 (rowIx F)⟩,
     ⟨S351x1, broadcastInDim S351x1 ![0] bcast_S351_S351x1_0 (colIx F)⟩]
    concatenates_S351x1_S351x1_S351x2_d1

/-! ## The float side -/

variable {F}

/-- The 27 features of every batch row: the dense row, then the 26 embedding rows. -/
def T (a0 : FVec F S16384x128 .f32) (a1 : FVec F S16384x26x128 .f32) : FVec F S16384x27x128 .f32 :=
  concatenate S16384x27x128 1
    [⟨S16384x1x128, broadcastInDim S16384x1x128 ![0, 2] bcast_S16384x128_S16384x1x128_0_2 a0⟩, ⟨S16384x26x128, a1⟩]
    concatenates_S16384x1x128_S16384x26x128_S16384x27x128_d1

/-- The Gram matrix of the features, per batch row. -/
def Z (a0 : FVec F S16384x128 .f32) (a1 : FVec F S16384x26x128 .f32) : FVec F S16384x27x27 .f32 :=
  Host.dotGeneral dot_S16384x27x128_S16384x27x128_S16384x27x27_2_2_1_1_0_0 none (T a0 a1) (T a0 a1)

/-- The reference's result: the Gram entries at the table's pairs. -/
def out (a0 : FVec F S16384x128 .f32) (a1 : FVec F S16384x26x128 .f32) : FVec F S16384x351 .f32 :=
  Host.gather gather_S16384x27x27_S351x2_S16384x351_0_12_n_n_12_1_1638411 (Z a0 a1) (pairIx F)

end Cert.ReferenceIdeal.Hand

end
-- ==== Proof.RefRun.lean ====
/-
  The reference's run: @main is a straight line of host operations (the outlined helper functions unfolded at their
  calls), so every weakly fair execution ends with the result buffer at the operations' composed term `out` of the
  two argument arrays, and the arguments unchanged.
-/
import proofs.«154655_j39891656245395_1_alg».proof.Proof.RefTerm
import Idealize.ShloMosaic.Lib.StableHlo
import Idealize.ShloMosaic.Lib.StableHlo.Run
import Idealize.ShloMosaic.Adequacy
import Idealize.ShloMosaic.Init

noncomputable section

namespace Cert.ReferenceIdeal.Hand

open Idealize.ShloMosaic Idealize.SL.Sem Idealize.ShloMosaic.StableHlo Cert.ReferenceIdeal

variable {F : FTy → Type} [FloatOps F]

section Aux

open Idealize.ShloMosaic.TcCoe Cert.ReferenceIdeal.Facts₀

/-! ## The operations

@main is a straight line of 138 host operations once each outlined function's body stands at its call. They are listed
in six stretches, cut where a later stage reads only a few earlier values: the Gram matrix `Z`; the constant chain up
to the flat positions `flat`; the row's floor division and remainder; the column's; the two wraps and their
columns; the table and the gather. In the three middle stretches an operation of a callee is first written as the
callee states it, over the call's typed references (`tops2`, `tops3`, `tops4`), and then over the buffers
themselves (`ops2`, `ops3`, `ops4`): the two are the same operation, the typed reference's transport being the
identity at a literal buffer. -/

/-- The float side: the dense row broadcast, the 27 features stacked, their Gram matrix. -/
abbrev ops1 : List (HloOp τ sig (Elt F)) :=
  [ StableHlo.unary main_arg0 main_v0 (broadcastInDim S16384x1x128 ![0, 2] bcast_S16384x128_S16384x1x128_0_2 : (⟨S16384x128, .f32⟩ : BufTy).Contents (Elt F) → (⟨S16384x1x128, .f32⟩ : BufTy).Contents (Elt F)),
    StableHlo.binary main_v0 main_arg1 main_v1 ((fun a b => concatenate S16384x27x128 1 [⟨S16384x1x128, a⟩, ⟨S16384x26x128, b⟩] concatenates_S16384x1x128_S16384x26x128_S16384x27x128_d1) : (⟨S16384x1x128, .f32⟩ : BufTy).Contents (Elt F) → (⟨S16384x26x128, .f32⟩ : BufTy).Contents (Elt F) → (⟨S16384x27x128, .f32⟩ : BufTy).Contents (Elt F)),
    StableHlo.binary main_v1 main_v1 main_v2 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)) ]

/-- The constant chain as the callees state it: the triangle of ones, its mask, the mask's running sum, the clip,
    the wrap, the histogram, its running sum. -/
abbrev tops2 : List (HloOp τ sig (Elt F)) :=
  [ StableHlo.nullary main_cst (constant S_ .f32 0x3F800000#32),
    StableHlo.unary main_cst main_v3 (broadcastInDim S27x27 ![] bcast_S_S27x27 : (⟨S_, .f32⟩ : BufTy).Contents (Elt F) → (⟨S27x27, .f32⟩ : BufTy).Contents (Elt F)),
    StableHlo.TRef.nullary main_call0.v0 (iotaInDim S27x27 32 0),
    StableHlo.TRef.nullary main_call0.c (constantI S_ 32 0#32),
    StableHlo.TRef.unary main_call0.c main_call0.v1 (broadcastInDim S27x27 ![] bcast_S_S27x27),
    StableHlo.TRef.binary main_call0.v0 main_call0.v1 main_call0.v2 addi,
    StableHlo.TRef.nullary main_call0.v3 (iotaInDim S27x27 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S27x27 ![] bcast_S_S27x27),
    StableHlo.TRef.ternary main_call0.v4 main_call0.v5 (StableHlo.TRef.of main_v3 : StableHlo.TRef sig ⟨S27x27, .f32⟩) main_call0.v6 select,
    StableHlo.nullary main_cst_0 (constant S_ .f32 0x00000000#32),
    StableHlo.unary main_cst_0 main_v5 (broadcastInDim S27x27 ![] bcast_S_S27x27 : (⟨S_, .f32⟩ : BufTy).Contents (Elt F) → (⟨S27x27, .f32⟩ : BufTy).Contents (Elt F)),
    StableHlo.binary main_v4 main_v5 main_v6 (cmpf .une : (⟨S27x27, .f32⟩ : BufTy).Contents (Elt F) → (⟨S27x27, .f32⟩ : BufTy).Contents (Elt F) → (⟨S27x27, .i1⟩ : BufTy).Contents (Elt F)),
    StableHlo.TRef.reshape (StableHlo.TRef.of main_v6 : StableHlo.TRef sig ⟨S27x27, .i1⟩) main_call1.v0 rfl shapeCasts_S27x27_S729,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![729] ![1] ![728] ![0] x v reduceWindows_S729_S729_w729s1p728_0 h_S_),
    StableHlo.nullary main_c (constantI S_ 32 0#32),
    StableHlo.unary main_c main_v8 (broadcastInDim S351 ![] bcast_S_S351 : (⟨S_, .i32⟩ : BufTy).Contents (Elt F) → (⟨S351, .i32⟩ : BufTy).Contents (Elt F)),
    StableHlo.nullary main_c_1 (constantI S_ 32 0#32),
    StableHlo.TRef.unary (StableHlo.TRef.of main_c_1 : StableHlo.TRef sig ⟨S_, .i32⟩) main_call2.v0 id,
    StableHlo.TRef.unary main_call2.v0 main_call2.v1 (broadcastInDim S729 ![] bcast_S_S729),
    StableHlo.TRef.binary main_call2.v1 (StableHlo.TRef.of main_v7 : StableHlo.TRef sig ⟨S729, .i32⟩) main_call2.v2 maxsi,
    StableHlo.nullary main_c_2 (constantI S_ 32 0#32),
    StableHlo.unary main_c_2 main_v10 (broadcastInDim S729 ![] bcast_S_S729 : (⟨S_, .i32⟩ : BufTy).Contents (Elt F) → (⟨S729, .i32⟩ : BufTy).Contents (Elt F)),
    StableHlo.binary main_v9 main_v10 main_v11 (cmpi .slt : (⟨S729, .i32⟩ : BufTy).Contents (Elt F) → (⟨S729, .i32⟩ : BufTy).Contents (Elt F) → (⟨S729, .i1⟩ : BufTy).Contents (Elt F)),
    StableHlo.nullary main_c_3 (constantI S_ 32 351#32),
    StableHlo.unary main_c_3 main_v12 (broadcastInDim S729 ![] bcast_S_S729 : (⟨S_, .i32⟩ : BufTy).Contents (Elt F) → (⟨S729, .i32⟩ : BufTy).Contents (Elt F)),
    StableHlo.binary main_v9 main_v12 main_v13 (addi : (⟨S729, .i32⟩ : BufTy).Contents (Elt F) → (⟨S729, .i32⟩ : BufTy).Contents (Elt F) → (⟨S729, .i32⟩ : BufTy).Contents (Elt F)),
    StableHlo.ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    StableHlo.unary main_v14 main_v15 (broadcastInDim S729x1 ![0] bcast_S729_S729x1_0 : (⟨S729, .i32⟩ : BufTy).Contents (Elt F) → (⟨S729x1, .i32⟩ : BufTy).Contents (Elt F)),
    StableHlo.nullary main_c_4 (constantI S_ 32 1#32),
    StableHlo.unary main_c_4 main_v16 (broadcastInDim S729 ![] bcast_S_S729 : (⟨S_, .i32⟩ : BufTy).Contents (Elt F) → (⟨S729, .i32⟩ : BufTy).Contents (Elt F)),
    StableHlo.ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (StableHlo.TRef.of main_v17 : StableHlo.TRef sig ⟨S351, .i32⟩) main_call3.call0.v0 main_call3.call0.v1 (fun x v => Host.reduceWindow IntOp.addi ![351] ![1] ![350] ![0] x v reduceWindows_S351_S351_w351s1p350_0 h_S_) ]

/-- The same over the buffers. -/
abbrev ops2 : List (HloOp τ sig (Elt F)) :=
  [ StableHlo.nullary main_cst (constant S_ .f32 0x3F800000#32),
    StableHlo.unary main_cst main_v3 (broadcastInDim S27x27 ![] bcast_S_S27x27 : (⟨S_, .f32⟩ : BufTy).Contents (Elt F) → (⟨S27x27, .f32⟩ : BufTy).Contents (Elt F)),
    StableHlo.nullary main_call0_v0 ((iotaInDim S27x27 32 0) : (⟨S27x27, .i32⟩ : BufTy).Contents (Elt F)),
    StableHlo.nullary main_call0_c ((constantI S_ 32 0#32) : (⟨S_, .i32⟩ : BufTy).Contents (Elt F)),
    StableHlo.unary main_call0_c main_call0_v1 ((broadcastInDim S27x27 ![] bcast_S_S27x27) : (⟨S_, .i32⟩ : BufTy).Contents (Elt F) → (⟨S27x27, .i32⟩ : BufTy).Contents (Elt F)),
    StableHlo.binary main_call0_v0 main_call0_v1 main_call0_v2 (addi : (⟨S27x27, .i32⟩ : BufTy).Contents (Elt F) → (⟨S27x27, .i32⟩ : BufTy).Contents (Elt F) → (⟨S27x27, .i32⟩ : BufTy).Contents (Elt F)),
    StableHlo.nullary main_call0_v3 ((iotaInDim S27x27 32 1) : (⟨S27x27, .i32⟩ : BufTy).Contents (Elt F)),
    StableHlo.binary main_call0_v2 main_call0_v3 main_call0_v4 ((cmpi .sge) : (⟨S27x27, .i32⟩ : BufTy).Contents (Elt F) → (⟨S27x27, .i32⟩ : BufTy).Contents (Elt F) → (⟨S27x27, .i1⟩ : BufTy).Contents (Elt F)),
    StableHlo.nullary main_call0_cst ((constant S_ .f32 0x00000000#32) : (⟨S_, .f32⟩ : BufTy).Contents (Elt F)),
    StableHlo.unary main_call0_cst main_call0_v5 ((broadcastInDim S27x27 ![] bcast_S_S27x27) : (⟨S_, .f32⟩ : BufTy).Contents (Elt F) → (⟨S27x27, .f32⟩ : BufTy).Contents (Elt F)),
    StableHlo.ternary main_call0_v4 main_call0_v5 main_v3 main_v4 (select : (⟨S27x27, .i1⟩ : BufTy).Contents (Elt F) → (⟨S27x27, .f32⟩ : BufTy).Contents (Elt F) → (⟨S27x27, .f32⟩ : BufTy).Contents (Elt F) → (⟨S27x27, .f32⟩ : BufTy).Contents (Elt F)),
    StableHlo.nullary main_cst_0 (constant S_ .f32 0x00000000#32),
    StableHlo.unary main_cst_0 main_v5 (broadcastInDim S27x27 ![] bcast_S_S27x27 : (⟨S_, .f32⟩ : BufTy).Contents (Elt F) → (⟨S27x27, .f32⟩ : BufTy).Contents (Elt F)),
    StableHlo.binary main_v4 main_v5 main_v6 (cmpf .une : (⟨S27x27, .f32⟩ : BufTy).Contents (Elt F) → (⟨S27x27, .f32⟩ : BufTy).Contents (Elt F) → (⟨S27x27, .i1⟩ : BufTy).Contents (Elt F)),
    StableHlo.reshape main_v6 main_call1_v0 rfl shapeCasts_S27x27_S729,
    StableHlo.unary main_call1_v0 main_call1_v1 ((extui 32 · natLt_1_32) : (⟨S729, .i1⟩ : BufTy).Contents (Elt F) → (⟨S729, .i32⟩ : BufTy).Contents (Elt F)),
    StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_call1_v1 main_call1_call0_v0 main_v7 ((fun x v => Host.reduceWindow IntOp.addi ![729] ![1] ![728] ![0] x v reduceWindows_S729_S729_w729s1p728_0 h_S_) : (⟨S729, .i32⟩ : BufTy).Contents (Elt F) → (⟨S_, .i32⟩ : BufTy).Contents (Elt F) → (⟨S729, .i32⟩ : BufTy).Contents (Elt F)),
    StableHlo.nullary main_c (constantI S_ 32 0#32),
    StableHlo.unary main_c main_v8 (broadcastInDim S351 ![] bcast_S_S351 : (⟨S_, .i32⟩ : BufTy).Contents (Elt F) → (⟨S351, .i32⟩ : BufTy).Contents (Elt F)),
    StableHlo.nullary main_c_1 (constantI S_ 32 0#32),
    StableHlo.unary main_c_1 main_call2_v0 (id : (⟨S_, .i32⟩ : BufTy).Contents (Elt F) → (⟨S_, .i32⟩ : BufTy).Contents (Elt F)),
    StableHlo.unary main_call2_v0 main_call2_v1 ((broadcastInDim S729 ![] bcast_S_S729) : (⟨S_, .i32⟩ : BufTy).Contents (Elt F) → (⟨S729, .i32⟩ : BufTy).Contents (Elt F)),
    StableHlo.binary main_call2_v1 main_v7 main_v9 (maxsi : (⟨S729, .i32⟩ : BufTy).Contents (Elt F) → (⟨S729, .i32⟩ : BufTy).Contents (Elt F) → (⟨S729, .i32⟩ : BufTy).Contents (Elt F)),
    StableHlo.nullary main_c_2 (constantI S_ 32 0#32),
    StableHlo.unary main_c_2 main_v10 (broadcastInDim S729 ![] bcast_S_S729 : (⟨S_, .i32⟩ : BufTy).Contents (Elt F) → (⟨S729, .i32⟩ : BufTy).Contents (Elt F)),
    StableHlo.binary main_v9 main_v10 main_v11 (cmpi .slt : (⟨S729, .i32⟩ : BufTy).Contents (Elt F) → (⟨S729, .i32⟩ : BufTy).Contents (Elt F) → (⟨S729, .i1⟩ : BufTy).Contents (Elt F)),
    StableHlo.nullary main_c_3 (constantI S_ 32 351#32),
    StableHlo.unary main_c_3 main_v12 (broadcastInDim S729 ![] bcast_S_S729 : (⟨S_, .i32⟩ : BufTy).Contents (Elt F) → (⟨S729, .i32⟩ : BufTy).Contents (Elt F)),
    StableHlo.binary main_v9 main_v12 main_v13 (addi : (⟨S729, .i32⟩ : BufTy).Contents (Elt F) → (⟨S729, .i32⟩ : BufTy).Contents (Elt F) → (⟨S729, .i32⟩ : BufTy).Contents (Elt F)),
    StableHlo.ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    StableHlo.unary main_v14 main_v15 (broadcastInDim S729x1 ![0] bcast_S729_S729x1_0 : (⟨S729, .i32⟩ : BufTy).Contents (Elt F) → (⟨S729x1, .i32⟩ : BufTy).Contents (Elt F)),
    StableHlo.nullary main_c_4 (constantI S_ 32 1#32),
    StableHlo.unary main_c_4 main_v16 (broadcastInDim S729 ![] bcast_S_S729 : (⟨S_, .i32⟩ : BufTy).Contents (Elt F) → (⟨S729, .i32⟩ : BufTy).Contents (Elt F)),
    StableHlo.ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    StableHlo.nullary main_call3_call0_c ((constantI S_ 32 0#32) : (⟨S_, .i32⟩ : BufTy).Contents (Elt F)),
    StableHlo.unary main_call3_call0_c main_call3_call0_v0 ((broadcastInDim S_ ![] bcast_S_S_) : (⟨S_, .i32⟩ : BufTy).Contents (Elt F) → (⟨S_, .i32⟩ : BufTy).Contents (Elt F)),
    StableHlo.binary main_v17 main_call3_call0_v0 main_v18 ((fun x v => Host.reduceWindow IntOp.addi ![351] ![1] ![350] ![0] x v reduceWindows_S351_S351_w351s1p350_0 h_S_) : (⟨S351, .i32⟩ : BufTy).Contents (Elt F) → (⟨S_, .i32⟩ : BufTy).Contents (Elt F) → (⟨S351, .i32⟩ : BufTy).Contents (Elt F)) ]

/-- The row's stretch as the callees state it: the floor division by 27 and the remainder by 27. -/
abbrev tops3 : List (HloOp τ sig (Elt F)) :=
  [ StableHlo.nullary main_c_5 (constantI S_ 32 27#32),
    StableHlo.TRef.unary (StableHlo.TRef.of main_c_5 : StableHlo.TRef sig ⟨S_, .i32⟩) main_call4.v0 (broadcastInDim S351 ![] bcast_S_S351),
    StableHlo.TRef.binary (StableHlo.TRef.of main_v18 : StableHlo.TRef sig ⟨S351, .i32⟩) main_call4.v0 main_call4.v1 Host.divsi,
    StableHlo.TRef.unary (StableHlo.TRef.of main_v18 : StableHlo.TRef sig ⟨S351, .i32⟩) main_call4.v2 signi,
    StableHlo.TRef.unary (StableHlo.TRef.of main_c_5 : StableHlo.TRef sig ⟨S_, .i32⟩) main_call4.v3 signi,
    StableHlo.TRef.unary main_call4.v3 main_call4.v4 (broadcastInDim S351 ![] bcast_S_S351),
    StableHlo.TRef.binary main_call4.v2 main_call4.v4 main_call4.v5 (cmpi .ne),
    StableHlo.TRef.unary (StableHlo.TRef.of main_c_5 : StableHlo.TRef sig ⟨S_, .i32⟩) main_call4.v6 (broadcastInDim S351 ![] bcast_S_S351),
    StableHlo.TRef.binary (StableHlo.TRef.of main_v18 : StableHlo.TRef sig ⟨S351, .i32⟩) main_call4.v6 main_call4.v7 Host.remsi,
    StableHlo.TRef.nullary main_call4.c (constantI S_ 32 0#32),
    StableHlo.TRef.unary main_call4.c main_call4.v8 (broadcastInDim S351 ![] bcast_S_S351),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S351 ![] bcast_S_S351),
    StableHlo.TRef.binary main_call4.v1 main_call4.v11 main_call4.v12 subi,
    StableHlo.TRef.ternary main_call4.v10 main_call4.v12 main_call4.v1 main_call4.call0.v0 select,
    StableHlo.nullary main_c_6 (constantI S_ 32 27#32),
    StableHlo.TRef.unary (StableHlo.TRef.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S351 ![] bcast_S_S351),
    StableHlo.TRef.binary (StableHlo.TRef.of main_v19 : StableHlo.TRef sig ⟨S351, .i32⟩) main_call5.v3 main_call5.v4 Host.remsi,
    StableHlo.TRef.nullary main_call5.c_1 (constantI S_ 32 0#32),
    StableHlo.TRef.unary main_call5.c_1 main_call5.v5 (broadcastInDim S351 ![] bcast_S_S351),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S351 ![] bcast_S_S351),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S351 ![] bcast_S_S351),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S351 ![] bcast_S_S351),
    StableHlo.TRef.binary main_call5.v4 main_call5.v13 main_call5.v14 addi,
    StableHlo.TRef.ternary main_call5.v12 main_call5.v14 main_call5.v4 main_call5.v15 select ]

/-- The same over the buffers. -/
abbrev ops3 : List (HloOp τ sig (Elt F)) :=
  [ StableHlo.nullary main_c_5 (constantI S_ 32 27#32),
    StableHlo.unary main_c_5 main_call4_v0 ((broadcastInDim S351 ![] bcast_S_S351) : (⟨S_, .i32⟩ : BufTy).Contents (Elt F) → (⟨S351, .i32⟩ : BufTy).Contents (Elt F)),
    StableHlo.binary main_v18 main_call4_v0 main_call4_v1 (Host.divsi : (⟨S351, .i32⟩ : BufTy).Contents (Elt F) → (⟨S351, .i32⟩ : BufTy).Contents (Elt F) → (⟨S351, .i32⟩ : BufTy).Contents (Elt F)),
    StableHlo.unary main_v18 main_call4_v2 (signi : (⟨S351, .i32⟩ : BufTy).Contents (Elt F) → (⟨S351, .i32⟩ : BufTy).Contents (Elt F)),
    StableHlo.unary main_c_5 main_call4_v3 (signi : (⟨S_, .i32⟩ : BufTy).Contents (Elt F) → (⟨S_, .i32⟩ : BufTy).Contents (Elt F)),
    StableHlo.unary main_call4_v3 main_call4_v4 ((broadcastInDim S351 ![] bcast_S_S351) : (⟨S_, .i32⟩ : BufTy).Contents (Elt F) → (⟨S351, .i32⟩ : BufTy).Contents (Elt F)),
    StableHlo.binary main_call4_v2 main_call4_v4 main_call4_v5 ((cmpi .ne) : (⟨S351, .i32⟩ : BufTy).Contents (Elt F) → (⟨S351, .i32⟩ : BufTy).Contents (Elt F) → (⟨S351, .i1⟩ : BufTy).Contents (Elt F)),
    StableHlo.unary main_c_5 main_call4_v6 ((broadcastInDim S351 ![] bcast_S_S351) : (⟨S_, .i32⟩ : BufTy).Contents (Elt F) → (⟨S351, .i32⟩ : BufTy).Contents (Elt F)),
    StableHlo.binary main_v18 main_call4_v6 main_call4_v7 (Host.remsi : (⟨S351, .i32⟩ : BufTy).Contents (Elt F) → (⟨S351, .i32⟩ : BufTy).Contents (Elt F) → (⟨S351, .i32⟩ : BufTy).Contents (Elt F)),
    StableHlo.nullary main_call4_c ((constantI S_ 32 0#32) : (⟨S_, .i32⟩ : BufTy).Contents (Elt F)),
    StableHlo.unary main_call4_c main_call4_v8 ((broadcastInDim S351 ![] bcast_S_S351) : (⟨S_, .i32⟩ : BufTy).Contents (Elt F) → (⟨S351, .i32⟩ : BufTy).Contents (Elt F)),
    StableHlo.binary main_call4_v7 main_call4_v8 main_call4_v9 ((cmpi .ne) : (⟨S351, .i32⟩ : BufTy).Contents (Elt F) → (⟨S351, .i32⟩ : BufTy).Contents (Elt F) → (⟨S351, .i1⟩ : BufTy).Contents (Elt F)),
    StableHlo.binary main_call4_v5 main_call4_v9 main_call4_v10 (andi : (⟨S351, .i1⟩ : BufTy).Contents (Elt F) → (⟨S351, .i1⟩ : BufTy).Contents (Elt F) → (⟨S351, .i1⟩ : BufTy).Contents (Elt F)),
    StableHlo.nullary main_call4_c_0 ((constantI S_ 32 1#32) : (⟨S_, .i32⟩ : BufTy).Contents (Elt F)),
    StableHlo.unary main_call4_c_0 main_call4_v11 ((broadcastInDim S351 ![] bcast_S_S351) : (⟨S_, .i32⟩ : BufTy).Contents (Elt F) → (⟨S351, .i32⟩ : BufTy).Contents (Elt F)),
    StableHlo.binary main_call4_v1 main_call4_v11 main_call4_v12 (subi : (⟨S351, .i32⟩ : BufTy).Contents (Elt F) → (⟨S351, .i32⟩ : BufTy).Contents (Elt F) → (⟨S351, .i32⟩ : BufTy).Contents (Elt F)),
    StableHlo.ternary main_call4_v10 main_call4_v12 main_call4_v1 main_v19 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    StableHlo.nullary main_c_6 (constantI S_ 32 27#32),
    StableHlo.unary main_c_6 main_call5_v0 (id : (⟨S_, .i32⟩ : BufTy).Contents (Elt F) → (⟨S_, .i32⟩ : BufTy).Contents (Elt F)),
    StableHlo.nullary main_call5_c ((constantI S_ 32 0#32) : (⟨S_, .i32⟩ : BufTy).Contents (Elt F)),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 ((constantI S_ 32 1#32) : (⟨S_, .i32⟩ : BufTy).Contents (Elt F)),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S351 ![] bcast_S_S351) : (⟨S_, .i32⟩ : BufTy).Contents (Elt F) → (⟨S351, .i32⟩ : BufTy).Contents (Elt F)),
    StableHlo.binary main_v19 main_call5_v3 main_call5_v4 (Host.remsi : (⟨S351, .i32⟩ : BufTy).Contents (Elt F) → (⟨S351, .i32⟩ : BufTy).Contents (Elt F) → (⟨S351, .i32⟩ : BufTy).Contents (Elt F)),
    StableHlo.nullary main_call5_c_1 ((constantI S_ 32 0#32) : (⟨S_, .i32⟩ : BufTy).Contents (Elt F)),
    StableHlo.unary main_call5_c_1 main_call5_v5 ((broadcastInDim S351 ![] bcast_S_S351) : (⟨S_, .i32⟩ : BufTy).Contents (Elt F) → (⟨S351, .i32⟩ : BufTy).Contents (Elt F)),
    StableHlo.binary main_call5_v4 main_call5_v5 main_call5_v6 ((cmpi .ne) : (⟨S351, .i32⟩ : BufTy).Contents (Elt F) → (⟨S351, .i32⟩ : BufTy).Contents (Elt F) → (⟨S351, .i1⟩ : BufTy).Contents (Elt F)),
    StableHlo.nullary main_call5_c_2 ((constantI S_ 32 0#32) : (⟨S_, .i32⟩ : BufTy).Contents (Elt F)),
    StableHlo.unary main_call5_c_2 main_call5_v7 ((broadcastInDim S351 ![] bcast_S_S351) : (⟨S_, .i32⟩ : BufTy).Contents (Elt F) → (⟨S351, .i32⟩ : BufTy).Contents (Elt F)),
    StableHlo.binary main_call5_v4 main_call5_v7 main_call5_v8 ((cmpi .slt) : (⟨S351, .i32⟩ : BufTy).Contents (Elt F) → (⟨S351, .i32⟩ : BufTy).Contents (Elt F) → (⟨S351, .i1⟩ : BufTy).Contents (Elt F)),
    StableHlo.nullary main_call5_c_3 ((constantI S_ 32 0#32) : (⟨S_, .i32⟩ : BufTy).Contents (Elt F)),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S351 ![] bcast_S_S351) : (⟨S_, .i1⟩ : BufTy).Contents (Elt F) → (⟨S351, .i1⟩ : BufTy).Contents (Elt F)),
    StableHlo.binary main_call5_v8 main_call5_v10 main_call5_v11 ((cmpi .ne) : (⟨S351, .i1⟩ : BufTy).Contents (Elt F) → (⟨S351, .i1⟩ : BufTy).Contents (Elt F) → (⟨S351, .i1⟩ : BufTy).Contents (Elt F)),
    StableHlo.binary main_call5_v11 main_call5_v6 main_call5_v12 (andi : (⟨S351, .i1⟩ : BufTy).Contents (Elt F) → (⟨S351, .i1⟩ : BufTy).Contents (Elt F) → (⟨S351, .i1⟩ : BufTy).Contents (Elt F)),
    StableHlo.unary main_call5_v2 main_call5_v13 ((broadcastInDim S351 ![] bcast_S_S351) : (⟨S_, .i32⟩ : BufTy).Contents (Elt F) → (⟨S351, .i32⟩ : BufTy).Contents (Elt F)),
    StableHlo.binary main_call5_v4 main_call5_v13 main_call5_v14 (addi : (⟨S351, .i32⟩ : BufTy).Contents (Elt F) → (⟨S351, .i32⟩ : BufTy).Contents (Elt F) → (⟨S351, .i32⟩ : BufTy).Contents (Elt F)),
    StableHlo.ternary main_call5_v12 main_call5_v14 main_call5_v4 main_v20 (select : (⟨S351, .i1⟩ : BufTy).Contents (Elt F) → (⟨S351, .i32⟩ : BufTy).Contents (Elt F) → (⟨S351, .i32⟩ : BufTy).Contents (Elt F) → (⟨S351, .i32⟩ : BufTy).Contents (Elt F)) ]

/-- The column's stretch as the callees state it: the floor division by 1 and the remainder by 27. -/
abbrev tops4 : List (HloOp τ sig (Elt F)) :=
  [ StableHlo.nullary main_c_7 (constantI S_ 32 1#32),
    StableHlo.TRef.unary (StableHlo.TRef.of main_c_7 : StableHlo.TRef sig ⟨S_, .i32⟩) main_call6.v0 (broadcastInDim S351 ![] bcast_S_S351),
    StableHlo.TRef.binary (StableHlo.TRef.of main_v18 : StableHlo.TRef sig ⟨S351, .i32⟩) main_call6.v0 main_call6.v1 Host.divsi,
    StableHlo.TRef.unary (StableHlo.TRef.of main_v18 : StableHlo.TRef sig ⟨S351, .i32⟩) main_call6.v2 signi,
    StableHlo.TRef.unary (StableHlo.TRef.of main_c_7 : StableHlo.TRef sig ⟨S_, .i32⟩) main_call6.v3 signi,
    StableHlo.TRef.unary main_call6.v3 main_call6.v4 (broadcastInDim S351 ![] bcast_S_S351),
    StableHlo.TRef.binary main_call6.v2 main_call6.v4 main_call6.v5 (cmpi .ne),
    StableHlo.TRef.unary (StableHlo.TRef.of main_c_7 : StableHlo.TRef sig ⟨S_, .i32⟩) main_call6.v6 (broadcastInDim S351 ![] bcast_S_S351),
    StableHlo.TRef.binary (StableHlo.TRef.of main_v18 : StableHlo.TRef sig ⟨S351, .i32⟩) main_call6.v6 main_call6.v7 Host.remsi,
    StableHlo.TRef.nullary main_call6.c (constantI S_ 32 0#32),
    StableHlo.TRef.unary main_call6.c main_call6.v8 (broadcastInDim S351 ![] bcast_S_S351),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S351 ![] bcast_S_S351),
    StableHlo.TRef.binary main_call6.v1 main_call6.v11 main_call6.v12 subi,
    StableHlo.TRef.ternary main_call6.v10 main_call6.v12 main_call6.v1 main_call6.call0.v0 select,
    StableHlo.nullary main_c_8 (constantI S_ 32 27#32),
    StableHlo.TRef.unary (StableHlo.TRef.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S351 ![] bcast_S_S351),
    StableHlo.TRef.binary (StableHlo.TRef.of main_v21 : StableHlo.TRef sig ⟨S351, .i32⟩) main_call7.v3 main_call7.v4 Host.remsi,
    StableHlo.TRef.nullary main_call7.c_1 (constantI S_ 32 0#32),
    StableHlo.TRef.unary main_call7.c_1 main_call7.v5 (broadcastInDim S351 ![] bcast_S_S351),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S351 ![] bcast_S_S351),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S351 ![] bcast_S_S351),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S351 ![] bcast_S_S351),
    StableHlo.TRef.binary main_call7.v4 main_call7.v13 main_call7.v14 addi,
    StableHlo.TRef.ternary main_call7.v12 main_call7.v14 main_call7.v4 main_call7.v15 select ]

/-- The same over the buffers. -/
abbrev ops4 : List (HloOp τ sig (Elt F)) :=
  [ StableHlo.nullary main_c_7 (constantI S_ 32 1#32),
    StableHlo.unary main_c_7 main_call6_v0 ((broadcastInDim S351 ![] bcast_S_S351) : (⟨S_, .i32⟩ : BufTy).Contents (Elt F) → (⟨S351, .i32⟩ : BufTy).Contents (Elt F)),
    StableHlo.binary main_v18 main_call6_v0 main_call6_v1 (Host.divsi : (⟨S351, .i32⟩ : BufTy).Contents (Elt F) → (⟨S351, .i32⟩ : BufTy).Contents (Elt F) → (⟨S351, .i32⟩ : BufTy).Contents (Elt F)),
    StableHlo.unary main_v18 main_call6_v2 (signi : (⟨S351, .i32⟩ : BufTy).Contents (Elt F) → (⟨S351, .i32⟩ : BufTy).Contents (Elt F)),
    StableHlo.unary main_c_7 main_call6_v3 (signi : (⟨S_, .i32⟩ : BufTy).Contents (Elt F) → (⟨S_, .i32⟩ : BufTy).Contents (Elt F)),
    StableHlo.unary main_call6_v3 main_call6_v4 ((broadcastInDim S351 ![] bcast_S_S351) : (⟨S_, .i32⟩ : BufTy).Contents (Elt F) → (⟨S351, .i32⟩ : BufTy).Contents (Elt F)),
    StableHlo.binary main_call6_v2 main_call6_v4 main_call6_v5 ((cmpi .ne) : (⟨S351, .i32⟩ : BufTy).Contents (Elt F) → (⟨S351, .i32⟩ : BufTy).Contents (Elt F) → (⟨S351, .i1⟩ : BufTy).Contents (Elt F)),
    StableHlo.unary main_c_7 main_call6_v6 ((broadcastInDim S351 ![] bcast_S_S351) : (⟨S_, .i32⟩ : BufTy).Contents (Elt F) → (⟨S351, .i32⟩ : BufTy).Contents (Elt F)),
    StableHlo.binary main_v18 main_call6_v6 main_call6_v7 (Host.remsi : (⟨S351, .i32⟩ : BufTy).Contents (Elt F) → (⟨S351, .i32⟩ : BufTy).Contents (Elt F) → (⟨S351, .i32⟩ : BufTy).Contents (Elt F)),
    StableHlo.nullary main_call6_c ((constantI S_ 32 0#32) : (⟨S_, .i32⟩ : BufTy).Contents (Elt F)),
    StableHlo.unary main_call6_c main_call6_v8 ((broadcastInDim S351 ![] bcast_S_S351) : (⟨S_, .i32⟩ : BufTy).Contents (Elt F) → (⟨S351, .i32⟩ : BufTy).Contents (Elt F)),
    StableHlo.binary main_call6_v7 main_call6_v8 main_call6_v9 ((cmpi .ne) : (⟨S351, .i32⟩ : BufTy).Contents (Elt F) → (⟨S351, .i32⟩ : BufTy).Contents (Elt F) → (⟨S351, .i1⟩ : BufTy).Contents (Elt F)),
    StableHlo.binary main_call6_v5 main_call6_v9 main_call6_v10 (andi : (⟨S351, .i1⟩ : BufTy).Contents (Elt F) → (⟨S351, .i1⟩ : BufTy).Contents (Elt F) → (⟨S351, .i1⟩ : BufTy).Contents (Elt F)),
    StableHlo.nullary main_call6_c_0 ((constantI S_ 32 1#32) : (⟨S_, .i32⟩ : BufTy).Contents (Elt F)),
    StableHlo.unary main_call6_c_0 main_call6_v11 ((broadcastInDim S351 ![] bcast_S_S351) : (⟨S_, .i32⟩ : BufTy).Contents (Elt F) → (⟨S351, .i32⟩ : BufTy).Contents (Elt F)),
    StableHlo.binary main_call6_v1 main_call6_v11 main_call6_v12 (subi : (⟨S351, .i32⟩ : BufTy).Contents (Elt F) → (⟨S351, .i32⟩ : BufTy).Contents (Elt F) → (⟨S351, .i32⟩ : BufTy).Contents (Elt F)),
    StableHlo.ternary main_call6_v10 main_call6_v12 main_call6_v1 main_v21 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    StableHlo.nullary main_c_8 (constantI S_ 32 27#32),
    StableHlo.unary main_c_8 main_call7_v0 (id : (⟨S_, .i32⟩ : BufTy).Contents (Elt F) → (⟨S_, .i32⟩ : BufTy).Contents (Elt F)),
    StableHlo.nullary main_call7_c ((constantI S_ 32 0#32) : (⟨S_, .i32⟩ : BufTy).Contents (Elt F)),
    StableHlo.binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    StableHlo.nullary main_call7_c_0 ((constantI S_ 32 1#32) : (⟨S_, .i32⟩ : BufTy).Contents (Elt F)),
    StableHlo.ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 ((broadcastInDim S351 ![] bcast_S_S351) : (⟨S_, .i32⟩ : BufTy).Contents (Elt F) → (⟨S351, .i32⟩ : BufTy).Contents (Elt F)),
    StableHlo.binary main_v21 main_call7_v3 main_call7_v4 (Host.remsi : (⟨S351, .i32⟩ : BufTy).Contents (Elt F) → (⟨S351, .i32⟩ : BufTy).Contents (Elt F) → (⟨S351, .i32⟩ : BufTy).Contents (Elt F)),
    StableHlo.nullary main_call7_c_1 ((constantI S_ 32 0#32) : (⟨S_, .i32⟩ : BufTy).Contents (Elt F)),
    StableHlo.unary main_call7_c_1 main_call7_v5 ((broadcastInDim S351 ![] bcast_S_S351) : (⟨S_, .i32⟩ : BufTy).Contents (Elt F) → (⟨S351, .i32⟩ : BufTy).Contents (Elt F)),
    StableHlo.binary main_call7_v4 main_call7_v5 main_call7_v6 ((cmpi .ne) : (⟨S351, .i32⟩ : BufTy).Contents (Elt F) → (⟨S351, .i32⟩ : BufTy).Contents (Elt F) → (⟨S351, .i1⟩ : BufTy).Contents (Elt F)),
    StableHlo.nullary main_call7_c_2 ((constantI S_ 32 0#32) : (⟨S_, .i32⟩ : BufTy).Contents (Elt F)),
    StableHlo.unary main_call7_c_2 main_call7_v7 ((broadcastInDim S351 ![] bcast_S_S351) : (⟨S_, .i32⟩ : BufTy).Contents (Elt F) → (⟨S351, .i32⟩ : BufTy).Contents (Elt F)),
    StableHlo.binary main_call7_v4 main_call7_v7 main_call7_v8 ((cmpi .slt) : (⟨S351, .i32⟩ : BufTy).Contents (Elt F) → (⟨S351, .i32⟩ : BufTy).Contents (Elt F) → (⟨S351, .i1⟩ : BufTy).Contents (Elt F)),
    StableHlo.nullary main_call7_c_3 ((constantI S_ 32 0#32) : (⟨S_, .i32⟩ : BufTy).Contents (Elt F)),
    StableHlo.binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    StableHlo.unary main_call7_v9 main_call7_v10 ((broadcastInDim S351 ![] bcast_S_S351) : (⟨S_, .i1⟩ : BufTy).Contents (Elt F) → (⟨S351, .i1⟩ : BufTy).Contents (Elt F)),
    StableHlo.binary main_call7_v8 main_call7_v10 main_call7_v11 ((cmpi .ne) : (⟨S351, .i1⟩ : BufTy).Contents (Elt F) → (⟨S351, .i1⟩ : BufTy).Contents (Elt F) → (⟨S351, .i1⟩ : BufTy).Contents (Elt F)),
    StableHlo.binary main_call7_v11 main_call7_v6 main_call7_v12 (andi : (⟨S351, .i1⟩ : BufTy).Contents (Elt F) → (⟨S351, .i1⟩ : BufTy).Contents (Elt F) → (⟨S351, .i1⟩ : BufTy).Contents (Elt F)),
    StableHlo.unary main_call7_v2 main_call7_v13 ((broadcastInDim S351 ![] bcast_S_S351) : (⟨S_, .i32⟩ : BufTy).Contents (Elt F) → (⟨S351, .i32⟩ : BufTy).Contents (Elt F)),
    StableHlo.binary main_call7_v4 main_call7_v13 main_call7_v14 (addi : (⟨S351, .i32⟩ : BufTy).Contents (Elt F) → (⟨S351, .i32⟩ : BufTy).Contents (Elt F) → (⟨S351, .i32⟩ : BufTy).Contents (Elt F)),
    StableHlo.ternary main_call7_v12 main_call7_v14 main_call7_v4 main_v22 (select : (⟨S351, .i1⟩ : BufTy).Contents (Elt F) → (⟨S351, .i32⟩ : BufTy).Contents (Elt F) → (⟨S351, .i32⟩ : BufTy).Contents (Elt F) → (⟨S351, .i32⟩ : BufTy).Contents (Elt F)) ]

/-- The two wraps by 27 and the two index columns. -/
abbrev ops5 : List (HloOp τ sig (Elt F)) :=
  [ StableHlo.nullary main_c_9 (constantI S_ 32 0#32),
    StableHlo.unary main_c_9 main_v23 (broadcastInDim S351 ![] bcast_S_S351 : (⟨S_, .i32⟩ : BufTy).Contents (Elt F) → (⟨S351, .i32⟩ : BufTy).Contents (Elt F)),
    StableHlo.binary main_v20 main_v23 main_v24 (cmpi .slt : (⟨S351, .i32⟩ : BufTy).Contents (Elt F) → (⟨S351, .i32⟩ : BufTy).Contents (Elt F) → (⟨S351, .i1⟩ : BufTy).Contents (Elt F)),
    StableHlo.nullary main_c_10 (constantI S_ 32 27#32),
    StableHlo.unary main_c_10 main_v25 (broadcastInDim S351 ![] bcast_S_S351 : (⟨S_, .i32⟩ : BufTy).Contents (Elt F) → (⟨S351, .i32⟩ : BufTy).Contents (Elt F)),
    StableHlo.binary main_v20 main_v25 main_v26 (addi : (⟨S351, .i32⟩ : BufTy).Contents (Elt F) → (⟨S351, .i32⟩ : BufTy).Contents (Elt F) → (⟨S351, .i32⟩ : BufTy).Contents (Elt F)),
    StableHlo.ternary main_v24 main_v26 main_v20 main_v27 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    StableHlo.nullary main_c_11 (constantI S_ 32 0#32),
    StableHlo.unary main_c_11 main_v28 (broadcastInDim S351 ![] bcast_S_S351 : (⟨S_, .i32⟩ : BufTy).Contents (Elt F) → (⟨S351, .i32⟩ : BufTy).Contents (Elt F)),
    StableHlo.binary main_v22 main_v28 main_v29 (cmpi .slt : (⟨S351, .i32⟩ : BufTy).Contents (Elt F) → (⟨S351, .i32⟩ : BufTy).Contents (Elt F) → (⟨S351, .i1⟩ : BufTy).Contents (Elt F)),
    StableHlo.nullary main_c_12 (constantI S_ 32 27#32),
    StableHlo.unary main_c_12 main_v30 (broadcastInDim S351 ![] bcast_S_S351 : (⟨S_, .i32⟩ : BufTy).Contents (Elt F) → (⟨S351, .i32⟩ : BufTy).Contents (Elt F)),
    StableHlo.binary main_v22 main_v30 main_v31 (addi : (⟨S351, .i32⟩ : BufTy).Contents (Elt F) → (⟨S351, .i32⟩ : BufTy).Contents (Elt F) → (⟨S351, .i32⟩ : BufTy).Contents (Elt F)),
    StableHlo.ternary main_v29 main_v31 main_v22 main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    StableHlo.unary main_v27 main_v33 (broadcastInDim S351x1 ![0] bcast_S351_S351x1_0 : (⟨S351, .i32⟩ : BufTy).Contents (Elt F) → (⟨S351x1, .i32⟩ : BufTy).Contents (Elt F)),
    StableHlo.unary main_v32 main_v34 (broadcastInDim S351x1 ![0] bcast_S351_S351x1_0 : (⟨S351, .i32⟩ : BufTy).Contents (Elt F) → (⟨S351x1, .i32⟩ : BufTy).Contents (Elt F)) ]

/-- The index table and the gather. -/
abbrev ops6 : List (HloOp τ sig (Elt F)) :=
  [ StableHlo.binary main_v33 main_v34 main_v35 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    StableHlo.binary main_v2 main_v35 main_v36 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)) ]

/-! ## A callee's operation over a call's typed references is the operation over the buffers

A typed reference made of a literal buffer at the buffer's own type moves contents along the identity, so the builder
over typed references and the builder over the buffers give one operation, whatever the function. -/

theorem tnullary_eq (y : Ref sig .tc) {h2 h3 hy} (v : y.ty.Contents (Elt F)) :
    (StableHlo.TRef.nullary (StableHlo.TRef.of y rfl h2 h3) v : HloOp τ sig (Elt F)) = StableHlo.nullary y v hy := rfl

theorem tunary_eq (x y : Ref sig .tc) {hx2 hx3 hy2 hy3 hx hy} (f : x.ty.Contents (Elt F) → y.ty.Contents (Elt F)) :
    (StableHlo.TRef.unary (StableHlo.TRef.of x rfl hx2 hx3) (StableHlo.TRef.of y rfl hy2 hy3) f : HloOp τ sig (Elt F))
      = StableHlo.unary x y f hx hy := rfl

theorem tbinary_eq (a b y : Ref sig .tc) {ha2 ha3 hb2 hb3 hy2 hy3 ha hb hy}
    (f : a.ty.Contents (Elt F) → b.ty.Contents (Elt F) → y.ty.Contents (Elt F)) :
    (StableHlo.TRef.binary (StableHlo.TRef.of a rfl ha2 ha3) (StableHlo.TRef.of b rfl hb2 hb3) (StableHlo.TRef.of y rfl hy2 hy3) f
        : HloOp τ sig (Elt F))
      = StableHlo.binary a b y f ha hb hy := rfl

theorem tternary_eq (c a b y : Ref sig .tc) {hc2 hc3 ha2 ha3 hb2 hb3 hy2 hy3 hc ha hb hy}
    (f : c.ty.Contents (Elt F) → a.ty.Contents (Elt F) → b.ty.Contents (Elt F) → y.ty.Contents (Elt F)) :
    (StableHlo.TRef.ternary (StableHlo.TRef.of c rfl hc2 hc3) (StableHlo.TRef.of a rfl ha2 ha3) (StableHlo.TRef.of b rfl hb2 hb3)
        (StableHlo.TRef.of y rfl hy2 hy3) f : HloOp τ sig (Elt F))
      = StableHlo.ternary c a b y f hc ha hb hy := rfl

theorem treshape_eq (x y : Ref sig .tc) {hx2 hx3 hy2 hy3 he hn he' hn' hx hy} :
    (StableHlo.TRef.reshape (StableHlo.TRef.of x rfl hx2 hx3) (StableHlo.TRef.of y rfl hy2 hy3) he hn : HloOp τ sig (Elt F))
      = StableHlo.reshape x y he' hn' hx hy := rfl

theorem cons_congr {α : Type} {a b : α} {l m : List α} (h : a = b) (h' : l = m) : a :: l = b :: m := by
  subst h; subst h'; rfl

theorem tops2_eq : (tops2 : List (HloOp τ sig (Elt F))) = ops2 := by
  apply cons_congr; exact rfl
  apply cons_congr; exact rfl
  apply cons_congr; exact tnullary_eq main_call0_v0 _
  apply cons_congr; exact tnullary_eq main_call0_c _
  apply cons_congr; exact tunary_eq main_call0_c main_call0_v1 _
  apply cons_congr; exact tbinary_eq main_call0_v0 main_call0_v1 main_call0_v2 _
  apply cons_congr; exact tnullary_eq main_call0_v3 _
  apply cons_congr; exact tbinary_eq main_call0_v2 main_call0_v3 main_call0_v4 _
  apply cons_congr; exact tnullary_eq main_call0_cst _
  apply cons_congr; exact tunary_eq main_call0_cst main_call0_v5 _
  apply cons_congr; exact tternary_eq main_call0_v4 main_call0_v5 main_v3 main_v4 _
  apply cons_congr; exact rfl
  apply cons_congr; exact rfl
  apply cons_congr; exact rfl
  apply cons_congr; exact treshape_eq main_v6 main_call1_v0
  apply cons_congr; exact tunary_eq main_call1_v0 main_call1_v1 _
  apply cons_congr; exact tnullary_eq main_call1_call0_c _
  apply cons_congr; exact tunary_eq main_call1_call0_c main_call1_call0_v0 _
  apply cons_congr; exact tbinary_eq main_call1_v1 main_call1_call0_v0 main_v7 _
  apply cons_congr; exact rfl
  apply cons_congr; exact rfl
  apply cons_congr; exact rfl
  apply cons_congr; exact tunary_eq main_c_1 main_call2_v0 _
  apply cons_congr; exact tunary_eq main_call2_v0 main_call2_v1 _
  apply cons_congr; exact tbinary_eq main_call2_v1 main_v7 main_v9 _
  apply cons_congr; exact rfl
  apply cons_congr; exact rfl
  apply cons_congr; exact rfl
  apply cons_congr; exact rfl
  apply cons_congr; exact rfl
  apply cons_congr; exact rfl
  apply cons_congr; exact rfl
  apply cons_congr; exact rfl
  apply cons_congr; exact rfl
  apply cons_congr; exact rfl
  apply cons_congr; exact rfl
  apply cons_congr; exact tnullary_eq main_call3_call0_c _
  apply cons_congr; exact tunary_eq main_call3_call0_c main_call3_call0_v0 _
  apply cons_congr; exact tbinary_eq main_v17 main_call3_call0_v0 main_v18 _
  rfl

theorem tops3_eq : (tops3 : List (HloOp τ sig (Elt F))) = ops3 := by
  apply cons_congr; exact rfl
  apply cons_congr; exact tunary_eq main_c_5 main_call4_v0 _
  apply cons_congr; exact tbinary_eq main_v18 main_call4_v0 main_call4_v1 _
  apply cons_congr; exact tunary_eq main_v18 main_call4_v2 _
  apply cons_congr; exact tunary_eq main_c_5 main_call4_v3 _
  apply cons_congr; exact tunary_eq main_call4_v3 main_call4_v4 _
  apply cons_congr; exact tbinary_eq main_call4_v2 main_call4_v4 main_call4_v5 _
  apply cons_congr; exact tunary_eq main_c_5 main_call4_v6 _
  apply cons_congr; exact tbinary_eq main_v18 main_call4_v6 main_call4_v7 _
  apply cons_congr; exact tnullary_eq main_call4_c _
  apply cons_congr; exact tunary_eq main_call4_c main_call4_v8 _
  apply cons_congr; exact tbinary_eq main_call4_v7 main_call4_v8 main_call4_v9 _
  apply cons_congr; exact tbinary_eq main_call4_v5 main_call4_v9 main_call4_v10 _
  apply cons_congr; exact tnullary_eq main_call4_c_0 _
  apply cons_congr; exact tunary_eq main_call4_c_0 main_call4_v11 _
  apply cons_congr; exact tbinary_eq main_call4_v1 main_call4_v11 main_call4_v12 _
  apply cons_congr; exact tternary_eq main_call4_v10 main_call4_v12 main_call4_v1 main_v19 _
  apply cons_congr; exact rfl
  apply cons_congr; exact tunary_eq main_c_6 main_call5_v0 _
  apply cons_congr; exact tnullary_eq main_call5_c _
  apply cons_congr; exact tbinary_eq main_call5_v0 main_call5_c main_call5_v1 _
  apply cons_congr; exact tnullary_eq main_call5_c_0 _
  apply cons_congr; exact tternary_eq main_call5_v1 main_call5_c_0 main_call5_v0 main_call5_v2 _
  apply cons_congr; exact tunary_eq main_call5_v2 main_call5_v3 _
  apply cons_congr; exact tbinary_eq main_v19 main_call5_v3 main_call5_v4 _
  apply cons_congr; exact tnullary_eq main_call5_c_1 _
  apply cons_congr; exact tunary_eq main_call5_c_1 main_call5_v5 _
  apply cons_congr; exact tbinary_eq main_call5_v4 main_call5_v5 main_call5_v6 _
  apply cons_congr; exact tnullary_eq main_call5_c_2 _
  apply cons_congr; exact tunary_eq main_call5_c_2 main_call5_v7 _
  apply cons_congr; exact tbinary_eq main_call5_v4 main_call5_v7 main_call5_v8 _
  apply cons_congr; exact tnullary_eq main_call5_c_3 _
  apply cons_congr; exact tbinary_eq main_call5_v2 main_call5_c_3 main_call5_v9 _
  apply cons_congr; exact tunary_eq main_call5_v9 main_call5_v10 _
  apply cons_congr; exact tbinary_eq main_call5_v8 main_call5_v10 main_call5_v11 _
  apply cons_congr; exact tbinary_eq main_call5_v11 main_call5_v6 main_call5_v12 _
  apply cons_congr; exact tunary_eq main_call5_v2 main_call5_v13 _
  apply cons_congr; exact tbinary_eq main_call5_v4 main_call5_v13 main_call5_v14 _
  apply cons_congr; exact tternary_eq main_call5_v12 main_call5_v14 main_call5_v4 main_v20 _
  rfl

theorem tops4_eq : (tops4 : List (HloOp τ sig (Elt F))) = ops4 := by
  apply cons_congr; exact rfl
  apply cons_congr; exact tunary_eq main_c_7 main_call6_v0 _
  apply cons_congr; exact tbinary_eq main_v18 main_call6_v0 main_call6_v1 _
  apply cons_congr; exact tunary_eq main_v18 main_call6_v2 _
  apply cons_congr; exact tunary_eq main_c_7 main_call6_v3 _
  apply cons_congr; exact tunary_eq main_call6_v3 main_call6_v4 _
  apply cons_congr; exact tbinary_eq main_call6_v2 main_call6_v4 main_call6_v5 _
  apply cons_congr; exact tunary_eq main_c_7 main_call6_v6 _
  apply cons_congr; exact tbinary_eq main_v18 main_call6_v6 main_call6_v7 _
  apply cons_congr; exact tnullary_eq main_call6_c _
  apply cons_congr; exact tunary_eq main_call6_c main_call6_v8 _
  apply cons_congr; exact tbinary_eq main_call6_v7 main_call6_v8 main_call6_v9 _
  apply cons_congr; exact tbinary_eq main_call6_v5 main_call6_v9 main_call6_v10 _
  apply cons_congr; exact tnullary_eq main_call6_c_0 _
  apply cons_congr; exact tunary_eq main_call6_c_0 main_call6_v11 _
  apply cons_congr; exact tbinary_eq main_call6_v1 main_call6_v11 main_call6_v12 _
  apply cons_congr; exact tternary_eq main_call6_v10 main_call6_v12 main_call6_v1 main_v21 _
  apply cons_congr; exact rfl
  apply cons_congr; exact tunary_eq main_c_8 main_call7_v0 _
  apply cons_congr; exact tnullary_eq main_call7_c _
  apply cons_congr; exact tbinary_eq main_call7_v0 main_call7_c main_call7_v1 _
  apply cons_congr; exact tnullary_eq main_call7_c_0 _
  apply cons_congr; exact tternary_eq main_call7_v1 main_call7_c_0 main_call7_v0 main_call7_v2 _
  apply cons_congr; exact tunary_eq main_call7_v2 main_call7_v3 _
  apply cons_congr; exact tbinary_eq main_v21 main_call7_v3 main_call7_v4 _
  apply cons_congr; exact tnullary_eq main_call7_c_1 _
  apply cons_congr; exact tunary_eq main_call7_c_1 main_call7_v5 _
  apply cons_congr; exact tbinary_eq main_call7_v4 main_call7_v5 main_call7_v6 _
  apply cons_congr; exact tnullary_eq main_call7_c_2 _
  apply cons_congr; exact tunary_eq main_call7_c_2 main_call7_v7 _
  apply cons_congr; exact tbinary_eq main_call7_v4 main_call7_v7 main_call7_v8 _
  apply cons_congr; exact tnullary_eq main_call7_c_3 _
  apply cons_congr; exact tbinary_eq main_call7_v2 main_call7_c_3 main_call7_v9 _
  apply cons_congr; exact tunary_eq main_call7_v9 main_call7_v10 _
  apply cons_congr; exact tbinary_eq main_call7_v8 main_call7_v10 main_call7_v11 _
  apply cons_congr; exact tbinary_eq main_call7_v11 main_call7_v6 main_call7_v12 _
  apply cons_congr; exact tunary_eq main_call7_v2 main_call7_v13 _
  apply cons_congr; exact tbinary_eq main_call7_v4 main_call7_v13 main_call7_v14 _
  apply cons_congr; exact tternary_eq main_call7_v12 main_call7_v14 main_call7_v4 main_v22 _
  rfl

/-- @main's operations in order, the calls unfolded: the six stretches one after the other. -/
abbrev ops : List (HloOp τ sig (Elt F)) := ops1 ++ (ops2 ++ (ops3 ++ (ops4 ++ (ops5 ++ ops6))))

set_option maxRecDepth 8192 in
/-- @main is that straight line: the functions' definitions unfolded at their calls and the records at their fields,
    both sides are one chain of steps once sequencing is reassociated. -/
theorem main_eq (c : Dev nD) : main (F := F) c = seq ops := by
  rw [ops, ← tops2_eq, ← tops3_eq, ← tops4_eq]
  simp only [seq_append, main, fn_triu.body, fn_cumsum.body, fn_cumsum_0.body, fn_clip.body, fn_cumsum_1.body, fn_cumsum_2.body,
    fn_floor_divide.body, fn_where.body, fn_remainder.body, fn_where_3.body, seq, bind_assoc, pure_bind]

/-! ## Every operation touches TensorCore buffers only, and determines what it writes -/

theorem ops1_sub : (ops1 : List (HloOp τ sig (Elt F))).Forall fun op => op.bufs ⊆ tcRefs τ sig :=
  ⟨unary_bufs_sub .., binary_bufs_sub .., binary_bufs_sub ..⟩

theorem ops1_fresh : (ops1 : List (HloOp τ sig (Elt F))).Forall fun op => op.fresh = ∅ :=
  ⟨rfl, rfl, rfl⟩

theorem ops2_sub : (ops2 : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl⟩

theorem ops6_sub : (ops6 : List (HloOp τ sig (Elt F))).Forall fun op => op.bufs ⊆ tcRefs τ sig :=
  ⟨binary_bufs_sub .., binary_bufs_sub ..⟩

theorem ops6_fresh : (ops6 : List (HloOp τ sig (Elt F))).Forall fun op => op.fresh = ∅ :=
  ⟨rfl, rfl⟩

theorem ops_sub : (ops : List (HloOp τ sig (Elt F))).Forall fun op => op.bufs ⊆ tcRefs τ sig :=
  List.forall_append.2 ⟨ops1_sub, List.forall_append.2 ⟨ops2_sub, List.forall_append.2 ⟨ops3_sub,
    List.forall_append.2 ⟨ops4_sub, List.forall_append.2 ⟨ops5_sub, ops6_sub⟩⟩⟩⟩⟩

theorem ops_fresh : ∀ op ∈ (ops : List (HloOp τ sig (Elt F))), op.fresh = ∅ :=
  List.forall_iff_forall_mem.1 (List.forall_append.2 ⟨ops1_fresh, List.forall_append.2 ⟨ops2_fresh,
    List.forall_append.2 ⟨ops3_fresh, List.forall_append.2 ⟨ops4_fresh, List.forall_append.2 ⟨ops5_fresh, ops6_fresh⟩⟩⟩⟩⟩)

theorem scopedRefs_eq : (Finset.univ.filter fun b : Ref sig .tc => b.isScoped) = ∅ := by decide
theorem scopedSems_eq : (Finset.univ.filter fun sm : SemLoc sig => sm.isScoped .tc) = ∅ := by decide

/-! ## What each stretch leaves

Per stretch: the value at the buffers a later stretch reads, as the stage's pure term of the values the stretch itself
reads; and that the buffers it does not write (the arguments, and the earlier values still to be read) keep theirs. -/
attribute [local irreducible] Host.reduceWindow Host.scatter Host.gather concatenate in
theorem ops1_v2 (V : Valuation τ sig (Elt F)) :
    after ops1 V (main_v2 : DevRef τ sig) = Z (V (main_arg0 : DevRef τ sig)) (V (main_arg1 : DevRef τ sig)) := by
  after_results <;> rfl
theorem ops1_arg0 (V : Valuation τ sig (Elt F)) : after ops1 V (main_arg0 : DevRef τ sig) = V (main_arg0 : DevRef τ sig) := by
  after_results_simp
theorem ops1_arg1 (V : Valuation τ sig (Elt F)) : after ops1 V (main_arg1 : DevRef τ sig) = V (main_arg1 : DevRef τ sig) := by
  after_results_simp

attribute [local irreducible] Host.reduceWindow Host.scatter Host.gather concatenate in
set_option maxRecDepth 8192 in
theorem ops2_v18 (V : Valuation τ sig (Elt F)) : after ops2 V (main_v18 : DevRef τ sig) = flat F := by
  after_results_simp <;> rfl
theorem ops2_arg0 (V : Valuation τ sig (Elt F)) : after ops2 V (main_arg0 : DevRef τ sig) = V (main_arg0 : DevRef τ sig) := by
  after_results_simp
theorem ops2_arg1 (V : Valuation τ sig (Elt F)) : after ops2 V (main_arg1 : DevRef τ sig) = V (main_arg1 : DevRef τ sig) := by
  after_results_simp
theorem ops2_v2 (V : Valuation τ sig (Elt F)) : after ops2 V (main_v2 : DevRef τ sig) = V (main_v2 : DevRef τ sig) := by
  after_results_simp

attribute [local irreducible] Host.reduceWindow Host.scatter Host.gather concatenate in
set_option maxRecDepth 8192 in
theorem ops3_v20 (V : Valuation τ sig (Elt F)) :
    after ops3 V (main_v20 : DevRef τ sig) = remainder (floorDiv (V (main_v18 : DevRef τ sig)) (constantI S_ 32 27#32)) (constantI S_ 32 27#32) := by
  after_results_simp <;> rfl
theorem ops3_arg0 (V : Valuation τ sig (Elt F)) : after ops3 V (main_arg0 : DevRef τ sig) = V (main_arg0 : DevRef τ sig) := by
  after_results_simp
theorem ops3_arg1 (V : Valuation τ sig (Elt F)) : after ops3 V (main_arg1 : DevRef τ sig) = V (main_arg1 : DevRef τ sig) := by
  after_results_simp
theorem ops3_v2 (V : Valuation τ sig (Elt F)) : after ops3 V (main_v2 : DevRef τ sig) = V (main_v2 : DevRef τ sig) := by
  after_results_simp
theorem ops3_v18 (V : Valuation τ sig (Elt F)) : after ops3 V (main_v18 : DevRef τ sig) = V (main_v18 : DevRef τ sig) := by
  after_results_simp

attribute [local irreducible] Host.reduceWindow Host.scatter Host.gather concatenate in
set_option maxRecDepth 8192 in
theorem ops4_v22 (V : Valuation τ sig (Elt F)) :
    after ops4 V (main_v22 : DevRef τ sig) = remainder (floorDiv (V (main_v18 : DevRef τ sig)) (constantI S_ 32 1#32)) (constantI S_ 32 27#32) := by
  after_results_simp <;> rfl
theorem ops4_arg0 (V : Valuation τ sig (Elt F)) : after ops4 V (main_arg0 : DevRef τ sig) = V (main_arg0 : DevRef τ sig) := by
  after_results_simp
theorem ops4_arg1 (V : Valuation τ sig (Elt F)) : after ops4 V (main_arg1 : DevRef τ sig) = V (main_arg1 : DevRef τ sig) := by
  after_results_simp
theorem ops4_v2 (V : Valuation τ sig (Elt F)) : after ops4 V (main_v2 : DevRef τ sig) = V (main_v2 : DevRef τ sig) := by
  after_results_simp
theorem ops4_v20 (V : Valuation τ sig (Elt F)) : after ops4 V (main_v20 : DevRef τ sig) = V (main_v20 : DevRef τ sig) := by
  after_results_simp

attribute [local irreducible] Host.reduceWindow Host.scatter Host.gather concatenate in
theorem ops5_v33 (V : Valuation τ sig (Elt F)) :
    after ops5 V (main_v33 : DevRef τ sig) = broadcastInDim S351x1 ![0] bcast_S351_S351x1_0 (wrap27 (V (main_v20 : DevRef τ sig))) := by
  after_results_simp <;> rfl
attribute [local irreducible] Host.reduceWindow Host.scatter Host.gather concatenate in
theorem ops5_v34 (V : Valuation τ sig (Elt F)) :
    after ops5 V (main_v34 : DevRef τ sig) = broadcastInDim S351x1 ![0] bcast_S351_S351x1_0 (wrap27 (V (main_v22 : DevRef τ sig))) := by
  after_results_simp <;> rfl
theorem ops5_arg0 (V : Valuation τ sig (Elt F)) : after ops5 V (main_arg0 : DevRef τ sig) = V (main_arg0 : DevRef τ sig) := by
  after_results_simp
theorem ops5_arg1 (V : Valuation τ sig (Elt F)) : after ops5 V (main_arg1 : DevRef τ sig) = V (main_arg1 : DevRef τ sig) := by
  after_results_simp
theorem ops5_v2 (V : Valuation τ sig (Elt F)) : after ops5 V (main_v2 : DevRef τ sig) = V (main_v2 : DevRef τ sig) := by
  after_results_simp

attribute [local irreducible] Host.reduceWindow Host.scatter Host.gather concatenate in
theorem ops6_v36 (V : Valuation τ sig (Elt F)) :
    after ops6 V (main_v36 : DevRef τ sig) = Host.gather gather_S16384x27x27_S351x2_S16384x351_0_12_n_n_12_1_1638411 (V (main_v2 : DevRef τ sig))
      (concatenate S351x2 1 [⟨S351x1, V (main_v33 : DevRef τ sig)⟩, ⟨S351x1, V (main_v34 : DevRef τ sig)⟩] concatenates_S351x1_S351x1_S351x2_d1) := by
  after_results <;> rfl
theorem ops6_arg0 (V : Valuation τ sig (Elt F)) : after ops6 V (main_arg0 : DevRef τ sig) = V (main_arg0 : DevRef τ sig) := by
  after_results_simp
theorem ops6_arg1 (V : Valuation τ sig (Elt F)) : after ops6 V (main_arg1 : DevRef τ sig) = V (main_arg1 : DevRef τ sig) := by
  after_results_simp

/-! ## The whole line -/

/-- The contents after two lines in a row: the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The result buffer after the whole line is `out` of the arguments: stretch by stretch from the last, each value
    read back to the stage that wrote it. -/
theorem out_eq (V : Valuation τ sig (Elt F)) :
    after ops V (main_v36 : DevRef τ sig) = out (V (main_arg0 : DevRef τ sig)) (V (main_arg1 : DevRef τ sig)) := by
  simp only [ops, after_app]
  rw [ops6_v36, ops5_v33, ops5_v34, ops5_v2, ops4_v22, ops4_v20, ops4_v2, ops3_v20, ops3_v18, ops3_v2, ops2_v18, ops2_v2,
    ops1_v2]
  rfl

theorem arg0_eq (V : Valuation τ sig (Elt F)) : after ops V (main_arg0 : DevRef τ sig) = V (main_arg0 : DevRef τ sig) := by
  simp only [ops, after_app]
  rw [ops6_arg0, ops5_arg0, ops4_arg0, ops3_arg0, ops2_arg0, ops1_arg0]

theorem arg1_eq (V : Valuation τ sig (Elt F)) : after ops V (main_arg1 : DevRef τ sig) = V (main_arg1 : DevRef τ sig) := by
  simp only [ops, after_app]
  rw [ops6_arg1, ops5_arg1, ops4_arg1, ops3_arg1, ops2_arg1, ops1_arg1]

end Aux

/-- Every weakly fair execution of the reference terminates with its result at `out` of the arguments, and the
    arguments as they were. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v36)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v36).trans (out_eq _), (h c main_arg0).trans (arg0_eq _),
      (h c main_arg1).trans (arg1_eq _)⟩)
    (run_seq scopedRefs_eq scopedSems_eq defs main (fun _ => ops) main_eq (fun _ => ops_sub) m ρ (fun _ => ops_fresh))

end Cert.ReferenceIdeal.Hand

end
-- ==== Proof.LibPrefixSum.lean ====
/-
  A running sum on the host. jax writes `cumsum` of a length-`n` vector as a window reduction: window `n`, stride 1,
  `n - 1` cells of padding in front and none behind, the padding and the start value both zero. Entry `p` of the result
  is then the sum of the entries `0 … p` of the operand (in the ring of 32-bit words).
-/
import Idealize.ShloMosaic.PureOps
import Idealize.ShloMosaic.Lib.ValueIdx
import Mathlib.Data.BitVec
import Mathlib.Algebra.BigOperators.Fin

namespace Cert.LibPrefixSum

open Idealize.ShloMosaic Idealize.ShloMosaic.ValueIdx

/-- A left fold that adds `g k` for `k` running over all of `Fin m` is the start value plus the sum of `g`. -/
private theorem foldl_finRange_add {m : Nat} (g : Fin m → BitVec 32) (a : BitVec 32) :
    (List.finRange m).foldl (fun r k => r + g k) a = a + ∑ k, g k := by
  have key : ∀ (l : List (Fin m)) (a : BitVec 32), l.foldl (fun r k => r + g k) a = a + (l.map g).sum := by
    intro l; induction l with
    | nil => intro a; simp
    | cons k l ih => intro a; simp [ih, add_assoc]
  rw [key, ← List.ofFn_eq_map, List.sum_ofFn]

/-- A rank-1 shape has as many elements as its one extent. -/
private theorem numel_one (n : Nat) : (⟨1, ![n]⟩ : Shape).numel = n := by simp [Shape.numel]

/-- At rank 1 the row-major position of an index is its coordinate, so the index at position `k` has coordinate `k`. -/
private theorem rowMajor_symm_val_one {n : Nat} (k : Fin (⟨1, ![n]⟩ : Shape).numel) :
    ((⟨1, ![n]⟩ : Shape).rowMajor.symm k 0).val = k.val := by
  have e := Shape.rowMajor_val_one ((⟨1, ![n]⟩ : Shape).rowMajor.symm k)
  rw [Equiv.apply_symm_apply] at e
  exact e.symm

/-- One cell of a rank-1 padded window, read by its one coordinate: the padded position `m` is operand entry
    `m - lo` when `lo ≤ m` and `m - lo` is below the extent, and the padding value otherwise. -/
private theorem cell_eq {n : Nat} (lo : Nat) (x : IVec ⟨1, ![n]⟩ 32) (v : BitVec 32) (P : Fin 1 → Nat) (m : Nat)
    (hm : P 0 = m) :
    (if hin : ∀ a : Fin 1, ![lo] a ≤ P a ∧ P a - ![lo] a < ![n] a then
        x (fun a => ⟨P a - ![lo] a, (hin a).2⟩) else v)
      = if hk : lo ≤ m ∧ m - lo < n then x (ix1 ⟨m - lo, hk.2⟩) else v := by
  subst hm
  by_cases hk : lo ≤ P 0 ∧ P 0 - lo < n
  · have hin : ∀ a : Fin 1, ![lo] a ≤ P a ∧ P a - ![lo] a < ![n] a := fun a => match a with | ⟨0, _⟩ => hk
    rw [dif_pos hk, dif_pos hin]
    congr 1
    funext a
    match a with | ⟨0, _⟩ => rfl
  · rw [dif_neg hk, dif_neg (fun hin => hk (hin 0))]

/-- The padded window reduction with `+` that jax's `cumsum` lowers to is the running sum. -/
theorem reduceWindow_addi_prefix {n lo : Nat} (hlo : lo + 1 = n)
    (x : IVec ⟨1, ![n]⟩ 32) (init : IVec ⟨0, ![]⟩ 32) (hinit : init ix0 = 0#32)
    (h : (⟨1, ![n]⟩ : Shape).ReduceWindows ![n] ![1] ![lo] ![0] ⟨1, ![n]⟩) (hu : 0 < (⟨0, ![]⟩ : Shape).numel)
    (p : Fin n) :
    Host.reduceWindow IntOp.addi ![n] ![1] ![lo] ![0] x init h hu (ix1 p)
      = ∑ q : Fin n, if q.val ≤ p.val then x (ix1 q) else 0#32 := by
  have hv : init (Shape.Idx.first hu) = 0#32 := by rw [eq_ix0 (Shape.Idx.first hu)]; exact hinit
  unfold Host.reduceWindow
  simp only [hv, IntOp.addi]
  rw [foldl_finRange_add, BitVec.zero_add]
  -- window cell `m` of result entry `p` sits at padded position `p + m`
  let F : Nat → BitVec 32 := fun m =>
    if hk : lo ≤ p.val + m ∧ p.val + m - lo < n then x (ix1 ⟨p.val + m - lo, hk.2⟩) else 0#32
  trans (∑ k : Fin (⟨1, ![n]⟩ : Shape).numel, F k.val)
  · refine Finset.sum_congr rfl fun k _ => ?_
    exact cell_eq lo x 0#32 _ (p.val + k.val) (by
      show p.val * 1 + ((⟨1, ![n]⟩ : Shape).rowMajor.symm k 0).val = _
      rw [rowMajor_symm_val_one, Nat.mul_one])
  rw [Fin.sum_univ_eq_sum_range F, numel_one, ← Fin.sum_univ_eq_sum_range F]
  subst hlo
  -- as `k` runs over the window the cells are the entries `p + 1, …, lo` of the padding side (zero) and then the
  -- operand entries `0, …, p`: the cyclic shift `k ↦ p + k + 1` modulo `lo + 1` re-indexes one sum as the other
  let φ : Fin (lo + 1) → Fin (lo + 1) := fun k =>
    if hk : lo ≤ p.val + k.val then ⟨p.val + k.val - lo, by omega⟩ else ⟨p.val + k.val + 1, by omega⟩
  have hφ : Function.Injective φ := by
    intro a b hab
    simp only [φ] at hab
    split_ifs at hab <;> simp only [Fin.mk.injEq] at hab <;> (apply Fin.ext; omega)
  refine Fintype.sum_bijective φ (Finite.injective_iff_bijective.mp hφ) _ _ fun k => ?_
  simp only [F, φ]
  by_cases hk : lo ≤ p.val + k.val
  · rw [dif_pos ⟨hk, by omega⟩, dif_pos hk, if_pos (by show p.val + k.val - lo ≤ p.val; omega)]
  · rw [dif_neg (fun h => hk h.1), dif_neg hk, if_neg (by show ¬ (p.val + k.val + 1 ≤ p.val); omega)]

end Cert.LibPrefixSum
-- ==== Proof.LibScatterCount.lean ====
/-
  A histogram on the host. jax writes `bincount` (and every `x.at[idx].add(u)` over a vector) as a scatter of a
  length-`n` vector of updates into a length-`m` operand, one scalar index per update, combined with `+`: entry `v`
  of the result is the operand's entry plus the sum of the updates whose index, read as a signed integer, is `v`;
  an update whose index falls outside `0 … m - 1` is dropped.
-/
import Idealize.ShloMosaic.PureOps
import Idealize.ShloMosaic.Lib.ValueIdx
import Mathlib.Data.BitVec
import Mathlib.Algebra.BigOperators.Fin

namespace Cert.LibScatterCount

open Idealize.ShloMosaic Idealize.ShloMosaic.ValueIdx

section
variable {m n : Nat} (d : ScatterDims ⟨1, ![m]⟩ ⟨2, ![n, 1]⟩ ⟨1, ![n]⟩)

/-- The operand's one axis is inserted, so no operand axis is kept and every window coordinate is 0. -/
private theorem window_zero (h2 : d.insertedWindowDims = [0]) (j : (⟨1, ![n]⟩ : Shape).Idx) (a : Fin 1) :
    d.window j a = 0 := by
  unfold ScatterDims.window
  rw [dif_neg]
  intro ha
  have h0 : a = 0 := Subsingleton.elim _ _
  subst h0
  simp [ScatterDims.sKept, Shape.kept, h2] at ha

/-- Update `j` reads its one start-index component at row `j 0`, column 0 of the scatter indices. -/
private theorem siIdx_eq (h1 : d.updateWindowDims = []) (h3 : d.scatterDimsToOperandDims = [0])
    (h4 : d.indexVectorDim = 1) (j : (⟨1, ![n]⟩ : Shape).Idx) (c : Fin d.scatterDimsToOperandDims.length) :
    d.siIdx j c = ix2 (j 0) 0 := by
  have hc : c.val = 0 := by
    have hl : d.scatterDimsToOperandDims.length = 1 := by rw [h3]; rfl
    have := c.isLt
    omega
  funext b
  match b with
  | ⟨0, hb⟩ =>
    unfold ScatterDims.siIdx
    rw [dif_neg (by rw [h4]; exact Nat.zero_ne_one)]
    unfold ScatterDims.siCoord
    apply Fin.ext
    simp only [Fin.val_cast]
    exact congrArg (fun t => (j t).val) (Subsingleton.elim _ 0)
  | ⟨1, hb⟩ =>
    unfold ScatterDims.siIdx
    rw [dif_pos (by rw [h4])]
    apply Fin.ext
    simp [hc]

/-- The start on the operand's axis is the signed value of that scatter index. -/
private theorem start_eq (h1 : d.updateWindowDims = []) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) 0)).toInt := by
  unfold ScatterDims.start
  have h0 : a = 0 := Subsingleton.elim _ _
  subst h0
  rw [dif_pos (by rw [h3]; exact List.mem_singleton_self _)]
  rw [siIdx_eq d h1 h3 h4]
  rfl

/-- Update `j` lands at entry `v` exactly when its scatter index, read signed, is `v`
    (a value outside `0 … m - 1` lands nowhere). -/
private theorem resultIdx_iff (h1 : d.updateWindowDims = []) (h2 : d.insertedWindowDims = [0])
    (h3 : d.scatterDimsToOperandDims = [0]) (h4 : d.indexVectorDim = 1)
    (idx : IVec ⟨2, ![n, 1]⟩ 32) (j : (⟨1, ![n]⟩ : Shape).Idx) (v : Fin m) :
    d.resultIdx? j idx = some (ix1 v) ↔ (idx (ix2 (j 0) 0)).toInt = (v.val : Int) := by
  unfold ScatterDims.resultIdx?
  simp only [start_eq d h1 h3 h4, window_zero d h2]
  constructor
  · intro h
    split at h
    · rename_i hc
      have hf := Option.some.inj h
      have h0 : ((idx (ix2 (j 0) 0)).toInt + ((0 : Nat) : Int)).toNat = v.val :=
        congrArg (fun f => (f 0).val) hf
      have := (hc 0).1
      omega
    · cases h
  · intro ht
    have hc : ∀ (a : Fin 1), 0 ≤ (idx (ix2 (j 0) 0)).toInt + ((0 : Nat) : Int)
        ∧ (idx (ix2 (j 0) 0)).toInt + ((0 : Nat) : Int) < ((![m] a : Nat) : Int) := by
      intro a
      have h0 : a = 0 := Subsingleton.elim _ _
      subst h0
      have := v.isLt
      simp only [Matrix.cons_val_fin_one]
      omega
    rw [dif_pos hc]
    congr 1
    funext a
    have h0 : a = 0 := Subsingleton.elim _ _
    subst h0
    apply Fin.ext
    show ((idx (ix2 (j 0) 0)).toInt + ((0 : Nat) : Int)).toNat = v.val
    omega

/-- A left fold whose every step adds `g k` at the point `a` adds, over the whole list, the sum of the `g k`. -/
private theorem foldl_at {α β : Type} (step : (α → BitVec 32) → β → (α → BitVec 32)) (g : β → BitVec 32) (a : α)
    (hstep : ∀ r k, step r k a = r a + g k) (L : List β) :
    ∀ r : α → BitVec 32, L.foldl step r a = r a + (L.map g).sum := by
  induction L with
  | nil => intro r; simp
  | cons k L ih =>
    intro r
    rw [List.foldl_cons, ih, hstep, List.map_cons, List.sum_cons, add_assoc]

/-- A rank-1 index set is its coordinate range. -/
private def coordEquiv : Fin n ≃ (⟨1, ![n]⟩ : Shape).Idx where
  toFun := ix1
  invFun i := i 0
  left_inv _ := rfl
  right_inv i := (eq_ix1 i).symm

end

/-- A scalar-indexed scatter with `+` into a vector, entry by entry. -/
theorem scatter_addi_rank1 {m n : Nat} (d : ScatterDims ⟨1, ![m]⟩ ⟨2, ![n, 1]⟩ ⟨1, ![n]⟩)
    (h1 : d.updateWindowDims = []) (h2 : d.insertedWindowDims = [0]) (h3 : d.scatterDimsToOperandDims = [0])
    (h4 : d.indexVectorDim = 1)
    (x : IVec ⟨1, ![m]⟩ 32) (idx : IVec ⟨2, ![n, 1]⟩ 32) (upd : IVec ⟨1, ![n]⟩ 32) (v : Fin m) :
    Host.scatter d IntOp.addi x idx upd (ix1 v)
      = x (ix1 v) + ∑ p : Fin n, if (idx (ix2 p 0)).toInt = (v.val : Int) then upd (ix1 p) else 0#32 := by
  unfold Host.scatter
  rw [foldl_at _ (fun k => if (idx (ix2 (((⟨1, ![n]⟩ : Shape).rowMajor.symm k) 0) 0)).toInt = (v.val : Int)
      then upd ((⟨1, ![n]⟩ : Shape).rowMajor.symm k) else 0#32) (ix1 v)]
  · congr 1
    rw [← Fin.sum_univ_def]
    rw [Equiv.sum_comp (⟨1, ![n]⟩ : Shape).rowMajor.symm
      (fun (j : (⟨1, ![n]⟩ : Shape).Idx) => if (idx (ix2 (j 0) 0)).toInt = (v.val : Int) then upd j else 0#32)]
    exact (Equiv.sum_comp coordEquiv
      (fun (j : (⟨1, ![n]⟩ : Shape).Idx) => if (idx (ix2 (j 0) 0)).toInt = (v.val : Int) then upd j else 0#32)).symm
  · intro r k
    have hiff := resultIdx_iff d h1 h2 h3 h4 idx ((⟨1, ![n]⟩ : Shape).rowMajor.symm k) v
    cases hres : d.resultIdx? ((⟨1, ![n]⟩ : Shape).rowMajor.symm k) idx with
    | none =>
      have hne : ¬ (idx (ix2 (((⟨1, ![n]⟩ : Shape).rowMajor.symm k) 0) 0)).toInt = (v.val : Int) := fun h => by
        rw [hiff.2 h] at hres; cases hres
      simp only [if_neg hne, BitVec.add_zero]
    | some i =>
      by_cases hv : ix1 v = i
      · subst hv
        simp only [if_pos (hiff.1 hres), if_true]
        rfl
      · have hne : ¬ (idx (ix2 (((⟨1, ![n]⟩ : Shape).rowMajor.symm k) 0) 0)).toInt = (v.val : Int) := fun h =>
          hv (Option.some.inj (hres.symm.trans (hiff.2 h))).symm
        simp only [if_neg hne, if_neg hv, BitVec.add_zero]

end Cert.LibScatterCount
-- ==== Proof.LibSortedCount.lean ====
/-
  Counting in a strictly increasing list of naturals, and two sums over `Fin n` read as counts.

  If `L` is strictly increasing and `k` is a position in it, then the entries of `L` that are `≤ p` number at most `k`
  exactly when `p` lies below entry `k`: the entries before position `k` are smaller than entry `k` and the ones from
  `k` on are at least it.
-/
import Mathlib.Data.List.Range
import Mathlib.Data.List.Pairwise
import Mathlib.Algebra.BigOperators.Fin

namespace Cert.LibSortedCount

/-- In a strictly increasing list at most `k` entries are `≤ p` exactly when `p` is below entry `k`. -/
theorem filter_le_length_le_iff (L : List ℕ) (hL : L.Pairwise (· < ·)) {k : ℕ} (hk : k < L.length) (p : ℕ) :
    (L.filter fun q => decide (q ≤ p)).length ≤ k ↔ p < L[k] := by
  induction L generalizing k with
  | nil => simp at hk
  | cons a t ih =>
    rw [List.pairwise_cons] at hL
    obtain ⟨ha, ht⟩ := hL
    by_cases hap : a ≤ p
    · rw [List.filter_cons_of_pos (by simpa using hap), List.length_cons]
      cases k with
      | zero =>
        simp only [List.getElem_cons_zero]
        omega
      | succ k =>
        have hk' : k < t.length := by simpa using hk
        simp only [List.getElem_cons_succ]
        rw [Nat.succ_le_succ_iff]
        exact ih ht hk'
    · have hnil : (t.filter fun q => decide (q ≤ p)) = [] := by
        rw [List.filter_eq_nil_iff]
        intro q hq
        have := ha q hq
        simp only [decide_eq_true_eq]
        omega
      rw [List.filter_cons_of_neg (by simpa using hap), hnil]
      have hlt : p < (a :: t)[k] := by
        cases k with
        | zero => simp only [List.getElem_cons_zero]; omega
        | succ k =>
          simp only [List.getElem_cons_succ]
          have := ha _ (List.getElem_mem (by simpa using hk : k < t.length))
          omega
      simp only [List.length_nil, Nat.zero_le, true_iff]
      exact hlt

/-- A sum of indicators over `Fin n` is the number of `q < n` with the property. -/
theorem sum_fin_ite_eq_length_filter (n : ℕ) (P : ℕ → Prop) [DecidablePred P] :
    (∑ q : Fin n, if P q.val then 1 else 0) = ((List.range n).filter fun q => decide (P q)).length := by
  induction n with
  | zero => simp
  | succ n ih =>
    rw [Fin.sum_univ_castSucc, List.range_succ, List.filter_append, List.length_append]
    simp only [Fin.coe_castSucc, Fin.val_last]
    rw [ih]
    by_cases h : P n <;> simp [h]

/-- The number of `q < n` below `m ≤ n` is `m`. -/
theorem sum_fin_ite_lt (n m : ℕ) (h : m ≤ n) : (∑ q : Fin n, if q.val < m then 1 else 0) = m := by
  induction n with
  | zero =>
    have : m = 0 := by omega
    subst this
    simp
  | succ n ih =>
    rw [Fin.sum_univ_castSucc]
    simp only [Fin.coe_castSucc, Fin.val_last]
    rcases Nat.lt_or_ge n m with hm | hm
    · have hmn : m = n + 1 := by omega
      subst hmn
      have hall : ∀ q : Fin n, (if q.val < n + 1 then 1 else 0) = 1 := fun q => by
        rw [if_pos (by omega)]
      simp [hall]
    · rw [ih hm, if_neg (by omega), Nat.add_zero]

end Cert.LibSortedCount
-- ==== Proof.IndexFlat.lean ====
/-
  The heart of the reference's index table: the running sum of the histogram of the running sum of the triangle mask.

  Write `tri p` for "position `p` of the 27 × 27 grid, read row by row, lies strictly above the diagonal"
  (`p / 27 < p mod 27`), and `c p` for the number of such positions among `0 … p`. The histogram counts, for each value
  `v` in `0 … 350`, the positions `p` with `c p = v` (the positions from the last set bit on have `c p = 351` and fall
  outside the histogram), and its running sum at `k` counts the positions with `c p ≤ k`. Those are exactly the
  positions before the `k`-th set bit, so the count is that bit's position `pos k`.
-/
import proofs.«154655_j39891656245395_1_alg».proof.Proof.RefTerm
import proofs.«154655_j39891656245395_1_alg».proof.Proof.Spec
import proofs.«154655_j39891656245395_1_alg».proof.Proof.LibPrefixSum
import proofs.«154655_j39891656245395_1_alg».proof.Proof.LibScatterCount
import proofs.«154655_j39891656245395_1_alg».proof.Proof.LibSortedCount
import Idealize.ShloMosaic.Lib.ValueIdx
import Idealize.ShloMosaic.Lib.Pipeline.Value
import Idealize.ShloMosaic.Lib.StableHlo.Predicate
import Idealize.ShloMosaic.Lib.IdealHost
import Idealize.ShloMosaic.PureOps.Ideal.Laws

noncomputable section

namespace Cert.ReferenceIdeal.Hand

open Idealize.ShloMosaic Idealize.ShloMosaic.ValueIdx Cert.ReferenceIdeal Cert.ReferenceIdeal.Facts₀ Cert.Interaction
open Idealize.ShloMosaic.StableHlo.Predicate

/-! ## The stages read at an index -/

/-- A scalar spread over the grid reads as the scalar. -/
private theorem bc27 {α : Type} (v : S_.Idx → α) (j : S27x27.Idx) :
    broadcastInDim S27x27 ![] bcast_S_S27x27 v j = v ix0 :=
  (bcast_scalar _ h_S_ v j).trans (congrArg v (eq_ix0 _))

/-- The comparison of the two grid coordinates, on words. -/
private theorem sge_coords : ∀ r c : Fin 27,
    IntOp.cmpi .sge (IntOp.addi (BitVec.ofNat 32 r.val) 0#32) (BitVec.ofNat 32 c.val) = if c.val ≤ r.val then 1#1 else 0#1 := by
  decide +kernel

/-- The mask is set strictly above the diagonal. -/
theorem mask_apply (r c : Fin 27) : mask Ideal (ix2 r c) = if r.val < c.val then 1#1 else 0#1 := by
  unfold mask triuOnes
  rw [cmpf_apply, select_apply, bc27, bc27]
  show FloatOps.cmpf .une (Scalar.select (IntOp.cmpi .sge (IntOp.addi (BitVec.ofNat 32 r.val)
    (broadcastInDim S27x27 ![] bcast_S_S27x27 (constantI S_ 32 0#32) (ix2 r c))) (BitVec.ofNat 32 c.val)) _ _) _ = _
  rw [bc27]
  show FloatOps.cmpf .une (Scalar.select (IntOp.cmpi .sge (IntOp.addi (BitVec.ofNat 32 r.val) 0#32) (BitVec.ofNat 32 c.val)) _ _) _ = _
  rw [sge_coords, constant_apply, constant_apply, Ideal.ofBits_zero_f32, Ideal.ofBits_one_f32, Ideal.cmpf_def]
  by_cases h : r.val < c.val
  · rw [if_neg (by omega), if_pos h, select_zero]
    simp [Ideal.cmp]
  · rw [if_pos (by omega), if_neg h, select_one]
    simp [Ideal.cmp]

/-- The flattened mask: position `p` carries a one exactly when it lies strictly above the diagonal. -/
theorem maskWords_apply (p : Fin 729) :
    maskWords Ideal (ix1 p) = if p.val / 27 < p.val % 27 then 1#32 else 0#32 := by
  unfold maskWords
  rw [extui_apply]
  rw [shapeCast_apply (mask Ideal) shapeCasts_S27x27_S729 (ix1 p)
    (ix2 ⟨p.val / 27, by have := p.isLt; omega⟩ ⟨p.val % 27, Nat.mod_lt _ (by decide)⟩) (by
      rw [Shape.rowMajor_val_two, Shape.rowMajor_val_one]
      show p.val / 27 * 27 + p.val % 27 = p.val
      exact Nat.div_add_mod' _ _)]
  rw [mask_apply]
  dsimp only
  split <;> rfl

/-! ## Elementwise integer operations at an index (each is its scalar operation of the operands there) -/

private theorem cmpi_ap {s : Shape} {w : Nat} (p : CmpIPredicate) (x y : IVec s w) (i : s.Idx) :
    cmpi p x y i = IntOp.cmpi p (x i) (y i) := rfl
private theorem addi_ap {s : Shape} {w : Nat} (x y : IVec s w) (i : s.Idx) : addi x y i = IntOp.addi (x i) (y i) := rfl
private theorem maxsi_ap {s : Shape} {w : Nat} (x y : IVec s w) (i : s.Idx) : maxsi x y i = IntOp.maxsi (x i) (y i) := rfl
private theorem constI_ap {s : Shape} {w : Nat} (c : BitVec w) (i : s.Idx) : constantI s w c i = c := rfl

/-- A word-valued sum of small counts is the word of their sum. -/
private theorem ofNat_sum {ι : Type} (s : Finset ι) (f : ι → ℕ) :
    BitVec.ofNat 32 (∑ i ∈ s, f i) = ∑ i ∈ s, BitVec.ofNat 32 (f i) := by
  rw [← BitVec.natCast_eq_ofNat, Nat.cast_sum]
  simp only [BitVec.natCast_eq_ofNat]

private theorem bc729 {α : Type} (v : S_.Idx → α) (j : S729.Idx) :
    broadcastInDim S729 ![] bcast_S_S729 v j = v ix0 :=
  (bcast_scalar _ h_S_ v j).trans (congrArg v (eq_ix0 _))

private theorem bc351 {α : Type} (v : S_.Idx → α) (j : S351.Idx) :
    broadcastInDim S351 ![] bcast_S_S351 v j = v ix0 :=
  (bcast_scalar _ h_S_ v j).trans (congrArg v (eq_ix0 _))

/-! ## The running sum of the mask -/

/-- How many positions among `0 … p` lie strictly above the diagonal. -/
def cnt (p : ℕ) : ℕ := ∑ q : Fin 729, if q.val ≤ p ∧ q.val / 27 < q.val % 27 then 1 else 0

theorem cnt_le (p : ℕ) : cnt p ≤ 729 := by
  unfold cnt
  calc (∑ q : Fin 729, if q.val ≤ p ∧ q.val / 27 < q.val % 27 then 1 else 0)
      ≤ ∑ _q : Fin 729, 1 := Finset.sum_le_sum fun q _ => by split <;> omega
    _ = 729 := by simp

/-- The running sum at `p` is that count. -/
theorem csum_apply (p : Fin 729) : csum Ideal (ix1 p) = BitVec.ofNat 32 (cnt p.val) := by
  unfold csum
  rw [Cert.LibPrefixSum.reduceWindow_addi_prefix (n := 729) (lo := 728) rfl (maskWords Ideal) _
    (by rw [bcast_scalar _ h_S_]; rfl) _ _ p]
  unfold cnt
  rw [ofNat_sum]
  refine Finset.sum_congr rfl fun q _ => ?_
  rw [maskWords_apply]
  by_cases h1 : q.val ≤ p.val
  · by_cases h2 : q.val / 27 < q.val % 27
    · rw [if_pos h1, if_pos h2, if_pos ⟨h1, h2⟩]
    · rw [if_pos h1, if_neg h2, if_neg fun h => h2 h.2]
  · rw [if_neg h1, if_neg fun h => h1 h.1]

/-- Clipping below at zero and wrapping a negative index leave a count as it is. -/
private theorem wrapW : ∀ n : Fin 730,
    Scalar.select (IntOp.cmpi .slt (IntOp.maxsi 0#32 (BitVec.ofNat 32 n.val)) 0#32)
      (IntOp.addi (IntOp.maxsi 0#32 (BitVec.ofNat 32 n.val)) 351#32) (IntOp.maxsi 0#32 (BitVec.ofNat 32 n.val))
      = BitVec.ofNat 32 n.val := by
  decide +kernel

theorem wrapped_apply (p : Fin 729) : wrapped Ideal (ix1 p) = BitVec.ofNat 32 (cnt p.val) := by
  unfold wrapped clipped
  simp only [select_apply, cmpi_ap, addi_ap, maxsi_ap, bc729, constI_ap, id, csum_apply]
  exact wrapW ⟨cnt p.val, by have := cnt_le p.val; omega⟩

/-! ## The histogram and its running sum -/

/-- A count read as a signed word is itself. -/
private theorem toInt_cnt : ∀ n : Fin 730, (BitVec.ofNat 32 n.val).toInt = (n.val : Int) := by
  decide +kernel

/-- Entry `v` of the histogram: the number of positions whose count is `v`. -/
theorem binc_apply (v : Fin 351) :
    binc Ideal (ix1 v) = BitVec.ofNat 32 (∑ p : Fin 729, if cnt p.val = v.val then 1 else 0) := by
  unfold binc
  rw [Cert.LibScatterCount.scatter_addi_rank1 (m := 351) (n := 729) scatter_S351_S729x1_S729_n_0_0_1 rfl rfl rfl rfl]
  rw [bc351, constI_ap, BitVec.zero_add]
  rw [ofNat_sum]
  refine Finset.sum_congr rfl fun p _ => ?_
  rw [bc729, constI_ap,
    Idealize.ShloMosaic.broadcastInDim_apply _ _ (wrapped Ideal) (ix2 p 0) (ix1 p) (fun a => by
      match a with
      | ⟨0, _⟩ => exact (if_neg (by show ¬ (729 : ℕ) = 1; decide)).symm),
    wrapped_apply, toInt_cnt ⟨cnt p.val, by have := cnt_le p.val; omega⟩]
  by_cases h : cnt p.val = v.val
  · rw [if_pos (congrArg Nat.cast h), if_pos h]
  · rw [if_neg fun e => h (Int.natCast_inj.mp e), if_neg h]

/-- The histogram's entries up to `k` add up to the number of positions whose count is at most `k`. -/
theorem count_swap (k : Fin 351) :
    (∑ v : Fin 351, if v.val ≤ k.val then (∑ p : Fin 729, if cnt p.val = v.val then 1 else 0) else 0)
      = ∑ p : Fin 729, if cnt p.val ≤ k.val then 1 else 0 := by
  have e1 : ∀ v : Fin 351, (if v.val ≤ k.val then (∑ p : Fin 729, if cnt p.val = v.val then 1 else 0) else 0)
      = ∑ p : Fin 729, if v.val ≤ k.val ∧ cnt p.val = v.val then 1 else 0 := fun v => by
    by_cases hv : v.val ≤ k.val
    · simp [hv]
    · simp [hv]
  simp only [e1]
  rw [Finset.sum_comm]
  refine Finset.sum_congr rfl fun p _ => ?_
  by_cases hp : cnt p.val ≤ k.val
  · rw [if_pos hp]
    rw [Finset.sum_eq_single (⟨cnt p.val, lt_of_le_of_lt hp k.isLt⟩ : Fin 351)]
    · simp [hp]
    · intro v _ hne
      have : ¬ cnt p.val = v.val := fun e => hne (Fin.ext e.symm)
      simp [this]
    · intro h; exact absurd (Finset.mem_univ _) h
  · rw [if_neg hp]
    refine Finset.sum_eq_zero fun v _ => ?_
    have : ¬ (v.val ≤ k.val ∧ cnt p.val = v.val) := fun ⟨h1, h2⟩ => hp (h2 ▸ h1)
    rw [if_neg this]

/-! ## Counts against the sorted list of set positions -/

theorem triuPos_pairwise : triuPos.Pairwise (· < ·) := List.Pairwise.filter _ List.pairwise_lt_range

/-- The count at `p` is the number of set positions that are at most `p`. -/
theorem cnt_eq_filter (p : ℕ) : cnt p = (triuPos.filter fun q => decide (q ≤ p)).length := by
  unfold cnt triuPos
  rw [Cert.LibSortedCount.sum_fin_ite_eq_length_filter 729 (fun q => q ≤ p ∧ q / 27 < q % 27), List.filter_filter]
  congr 1
  refine List.filter_congr fun q _ => ?_
  simp [Bool.decide_and]

/-- A position has at most `k` set positions up to it exactly when it lies before the `k`-th set position. -/
theorem cnt_le_iff (k : Fin 351) (p : ℕ) : cnt p ≤ k.val ↔ p < pos k := by
  rw [cnt_eq_filter]
  exact Cert.LibSortedCount.filter_le_length_le_iff triuPos triuPos_pairwise (by rw [triuPos_length]; exact k.isLt) p

/-- The running sum of the histogram at `k` is the flat position of the `k`-th set bit of the mask. -/
theorem flat_eq (k : Fin 351) : flat Ideal (ix1 k) = BitVec.ofNat 32 (pos k) := by
  unfold flat
  rw [Cert.LibPrefixSum.reduceWindow_addi_prefix (n := 351) (lo := 350) rfl (binc Ideal) _
    (by rw [bcast_scalar _ h_S_]; rfl) _ _ k]
  have e : ∀ v : Fin 351, (if v.val ≤ k.val then binc Ideal (ix1 v) else 0#32)
      = BitVec.ofNat 32 (if v.val ≤ k.val then (∑ p : Fin 729, if cnt p.val = v.val then 1 else 0) else 0) := fun v => by
    by_cases hv : v.val ≤ k.val
    · rw [if_pos hv, if_pos hv, binc_apply]
    · rw [if_neg hv, if_neg hv]
  simp only [e]
  rw [← ofNat_sum, count_swap]
  refine congrArg (BitVec.ofNat 32) ?_
  simp only [cnt_le_iff]
  exact Cert.LibSortedCount.sum_fin_ite_lt 729 (pos k) (le_of_lt (pos_lt k))

end Cert.ReferenceIdeal.Hand

end
-- ==== Proof.IndexTable.lean ====
/-
  The reference's index table, evaluated: its row `k` is the pair (row, column) of the `k`-th position of the strict
  upper triangle of the 27 × 27 grid, `pos k / 27` and `pos k mod 27`. The program computes them from the flat
  position by jnp's floor division and remainder (truncated division and remainder with sign corrections that never
  fire on a position in `0 … 728`) and a wrap of negative indices that never fires either.

  Every operation after the flat position is elementwise, so entry `k` of each column is one function of words
  (`rowW`, `colW`) applied to entry `k` of the flat positions. That entry is one of the 729 words `0 … 728`, and on
  each of them the two functions are evaluated: they give the quotient and the remainder by 27.
-/
import proofs.«154655_j39891656245395_1_alg».proof.Proof.RefTerm
import proofs.«154655_j39891656245395_1_alg».proof.Proof.Spec
import proofs.«154655_j39891656245395_1_alg».proof.Proof.IndexFlat
import Idealize.ShloMosaic.Lib.ValueIdx

noncomputable section

namespace Cert.ReferenceIdeal.Hand

open Idealize.ShloMosaic Idealize.ShloMosaic.ValueIdx Cert.ReferenceIdeal Cert.Interaction

/-! ## The chain at one element -/

/-- The sign of a word read as a two's-complement integer: `0`, `-1` or `1`. -/
def signW (x : BitVec 32) : BitVec 32 := if x = 0 then 0 else if x.msb then -1 else 1

/-- jnp's floor division of one word by another: the truncated quotient, one less where the signs differ and the
    division is not exact. -/
def floorDivW (x y : BitVec 32) : BitVec 32 :=
  Scalar.select
    (IntOp.andi (IntOp.cmpi .ne (signW x) (signW y)) (IntOp.cmpi .ne (IntOp.remsi .host x y) 0#32))
    (IntOp.subi (IntOp.divsi .host x y) 1#32)
    (IntOp.divsi .host x y)

/-- The divisor jnp's remainder uses: one in place of zero. -/
def safeDivisorW (y : BitVec 32) : BitVec 32 := Scalar.select (IntOp.cmpi .eq y 0#32) 1#32 y

/-- jnp's remainder of one word by another: the truncated remainder, the divisor added where it is not zero and its
    sign differs from the divisor's. -/
def remainderW (x y : BitVec 32) : BitVec 32 :=
  Scalar.select
    (IntOp.andi
      (IntOp.cmpi .ne (IntOp.cmpi .slt (IntOp.remsi .host x (safeDivisorW y)) 0#32)
        (IntOp.cmpi .slt (safeDivisorW y) 0#32))
      (IntOp.cmpi .ne (IntOp.remsi .host x (safeDivisorW y)) 0#32))
    (IntOp.addi (IntOp.remsi .host x (safeDivisorW y)) (safeDivisorW y))
    (IntOp.remsi .host x (safeDivisorW y))

/-- A negative word wrapped by the grid's side. -/
def wrap27W (x : BitVec 32) : BitVec 32 := Scalar.select (IntOp.cmpi .slt x 0#32) (IntOp.addi x 27#32) x

/-- The row of a flat position, as the program computes it. -/
def rowW (x : BitVec 32) : BitVec 32 := wrap27W (remainderW (floorDivW x 27#32) 27#32)

/-- The column of a flat position, as the program computes it. -/
def colW (x : BitVec 32) : BitVec 32 := wrap27W (remainderW (floorDivW x 1#32) 27#32)

/-! ## Each vector operation, read at an index

A scalar constant broadcast to the vector is that constant at every index, and every other operation applies its
word operation index by index. -/

theorem floorDiv_apply (x : IVec S351 32) (c : BitVec 32) (i : S351.Idx) :
    floorDiv x (constantI S_ 32 c) i = floorDivW (x i) c := rfl

theorem remainder_apply (x : IVec S351 32) (c : BitVec 32) (i : S351.Idx) :
    remainder x (constantI S_ 32 c) i = remainderW (x i) c := rfl

theorem wrap27_apply (x : IVec S351 32) (i : S351.Idx) : wrap27 x i = wrap27W (x i) := rfl

theorem rowIx_apply (i : S351.Idx) : rowIx Ideal i = rowW (flat Ideal i) := by
  unfold rowIx rowW
  rw [wrap27_apply, remainder_apply, floorDiv_apply]

theorem colIx_apply (i : S351.Idx) : colIx Ideal i = colW (flat Ideal i) := by
  unfold colIx colW
  rw [wrap27_apply, remainder_apply, floorDiv_apply]

/-! ## The two word functions on the 729 positions -/

/-- On each position `0 … 728` the row function gives the quotient by 27: the 729 cases, evaluated. -/
theorem rowW_table : ∀ P : Fin 729, rowW (BitVec.ofNat 32 P.val) = BitVec.ofNat 32 (P.val / 27) := by
  decide +kernel

/-- On each position `0 … 728` the column function gives the remainder by 27: the 729 cases, evaluated. -/
theorem colW_table : ∀ P : Fin 729, colW (BitVec.ofNat 32 P.val) = BitVec.ofNat 32 (P.val % 27) := by
  decide +kernel

/-! ## The table's two columns -/

/-- The table's first column: the row of the `k`-th position. -/
theorem rowIx_eq (k : Fin 351) : rowIx Ideal (ix1 k) = BitVec.ofNat 32 (rowOf k).val := by
  rw [rowIx_apply, flat_eq]
  exact rowW_table ⟨pos k, pos_lt k⟩

/-- The table's second column: the column of the `k`-th position. -/
theorem colIx_eq (k : Fin 351) : colIx Ideal (ix1 k) = BitVec.ofNat 32 (colOf k).val := by
  rw [colIx_apply, flat_eq]
  exact colW_table ⟨pos k, pos_lt k⟩

end Cert.ReferenceIdeal.Hand

end
-- ==== Proof.LibGatherPair.lean ====
/-
  A gather by pairs on the host. `Z[:, r, c]` with two index vectors `r`, `c` of length `K` over a `B × N × N` array
  lowers to one gather whose start indices are the `K × 2` array of the pairs: result entry `(b, k)` is the operand's
  entry `(b, r k, c k)` when both indices are in range (an index out of range would be clamped; that case is not
  needed here).
-/
import Idealize.ShloMosaic.PureOps
import Idealize.ShloMosaic.Lib.ValueIdx

namespace Cert.LibGatherPair

open Idealize.ShloMosaic Idealize.ShloMosaic.ValueIdx

section Parts
variable {B N K w : Nat} (d : GatherDims ⟨3, ![B, N, N]⟩ ⟨2, ![K, 2]⟩ ⟨2, ![B, K]⟩)

/-- The result's only offset axis is axis 0. -/
private theorem off_eq (h1 : d.offsetDims = [0]) : ∀ x, x ∈ d.offsetDims → x = (0 : Fin 2) := by
  rw [h1]; intro x hx; exact List.mem_singleton.1 hx

/-- The result's only batch axis is axis 1. -/
private theorem bat_eq (h1 : d.offsetDims = [0]) : ∀ x, x ∈ d.batchDims → x = (1 : Fin 2) := by
  show ∀ x, x ∈ Shape.kept _ d.offsetDims → _
  rw [h1]; intro x hx
  simp only [Shape.kept, List.mem_filter, List.mem_finRange, true_and, List.mem_singleton, decide_not,
    Bool.not_eq_eq_eq_not, Bool.not_true, decide_eq_false_iff_not] at hx
  match x, hx with
  | ⟨0, _⟩, hx => exact absurd rfl hx
  | ⟨1, _⟩, _ => rfl

/-- The start-indices index read for component `q` of result entry `(b, k)`'s start index is `(k, q)`. -/
private theorem siIdx_eq (h1 : d.offsetDims = [0]) (h6 : d.indexVectorDim = 1) (b : Fin B) (k : Fin K)
    (c : Fin d.startIndexMap.length) (q : Fin 2) (hq : c.val = q.val) :
    d.siIdx (ix2 b k) c = ix2 k q := by
  funext a
  match a with
  | ⟨0, _⟩ =>
    unfold GatherDims.siIdx
    rw [dif_neg (by rw [h6]; simp)]
    unfold GatherDims.siCoord
    apply Fin.ext
    simp only [Fin.val_cast]
    have e : ∀ X : Fin 2, X = 1 → ((ix2 b k : (⟨2, ![B, K]⟩ : Shape).Idx) X).val = k.val := by
      rintro X rfl; rfl
    exact e _ (bat_eq d h1 _ (List.getElem_mem _))
  | ⟨1, _⟩ =>
    unfold GatherDims.siIdx
    rw [dif_pos (by rw [h6])]
    apply Fin.ext
    exact hq

end Parts

/-- The gather that picks entry `(r k, c k)` of each `N × N` slice, at in-range indices. -/
theorem gather_pair_apply {α : Type} {B N K w : Nat} (d : GatherDims ⟨3, ![B, N, N]⟩ ⟨2, ![K, 2]⟩ ⟨2, ![B, K]⟩)
    (h1 : d.offsetDims = [0]) (h2 : d.collapsedSliceDims = [1, 2]) (h3 : d.operandBatchingDims = [])
    (h4 : d.startIndicesBatchingDims = []) (h5 : d.startIndexMap = [1, 2]) (h6 : d.indexVectorDim = 1)
    (h7 : d.sliceSizes = ![B, 1, 1])
    (x : (⟨3, ![B, N, N]⟩ : Shape).Idx → α) (idx : IVec ⟨2, ![K, 2]⟩ w) (b : Fin B) (k : Fin K) (i j : Fin N)
    (hi : (idx (ix2 k 0)).toInt = (i.val : Int)) (hj : (idx (ix2 k 1)).toInt = (j.val : Int)) :
    Host.gather d x idx (ix2 b k) = x (ix3 b i j) := by
  have hob : ∀ a : Fin 3, a ∉ d.operandBatchingDims := by intro a; rw [h3]; exact List.not_mem_nil
  have hl1 : d.startIndexMap.idxOf (1 : Fin 3) = 0 := by rw [h5]; show List.idxOf (1 : Fin 3) ([1, 2] : List (Fin 3)) = 0; decide
  have hl2 : d.startIndexMap.idxOf (2 : Fin 3) = 1 := by rw [h5]; show List.idxOf (2 : Fin 3) ([1, 2] : List (Fin 3)) = 1; decide
  have hm0 : (0 : Fin 3) ∉ d.startIndexMap := by rw [h5]; show (0 : Fin 3) ∉ ([1, 2] : List (Fin 3)); decide
  have hm1 : (1 : Fin 3) ∈ d.startIndexMap := by rw [h5]; show (1 : Fin 3) ∈ ([1, 2] : List (Fin 3)); decide
  have hm2 : (2 : Fin 3) ∈ d.startIndexMap := by rw [h5]; show (2 : Fin 3) ∈ ([1, 2] : List (Fin 3)); decide
  have hk0 : (0 : Fin 3) ∈ d.sKept := (GatherDims.mem_sKept d 0).2 ⟨by rw [h2]; show (0 : Fin 3) ∉ ([1, 2] : List (Fin 3)); decide, hob 0⟩
  have hk1 : (1 : Fin 3) ∉ d.sKept := fun h => ((GatherDims.mem_sKept d 1).1 h).1 (by rw [h2]; show (1 : Fin 3) ∈ ([1, 2] : List (Fin 3)); decide)
  have hk2 : (2 : Fin 3) ∉ d.sKept := fun h => ((GatherDims.mem_sKept d 2).1 h).1 (by rw [h2]; show (2 : Fin 3) ∈ ([1, 2] : List (Fin 3)); decide)
  have hs1 : d.sliceSizes (1 : Fin 3) = 1 := by rw [h7]; rfl
  have hs2 : d.sliceSizes (2 : Fin 3) = 1 := by rw [h7]; rfl
  have hti : (idx (ix2 k 0)).toInt.toNat = i.val := by rw [hi]; exact Int.toNat_natCast _
  have htj : (idx (ix2 k 1)).toInt.toNat = j.val := by rw [hj]; exact Int.toNat_natCast _
  have hiN := i.isLt
  have hjN := j.isLt
  unfold Host.gather
  congr 1
  funext a
  apply Fin.ext
  match a with
  | ⟨0, _⟩ =>
    show d.start (ix2 b k) idx 0 + d.batchCoord (ix2 b k) 0 + d.offCoord (ix2 b k) 0 = b.val
    rw [GatherDims.batchCoord_eq_zero _ _ _ (hob 0)]
    unfold GatherDims.start GatherDims.offCoord
    rw [dif_neg hm0, dif_pos hk0]
    have e : ∀ X : Fin 2, X = 0 → ((ix2 b k : (⟨2, ![B, K]⟩ : Shape).Idx) X).val = b.val := by
      rintro X rfl; rfl
    rw [e _ (off_eq d h1 _ (List.getElem_mem _))]
    omega
  | ⟨1, _⟩ =>
    show d.start (ix2 b k) idx 1 + d.batchCoord (ix2 b k) 1 + d.offCoord (ix2 b k) 1 = i.val
    rw [GatherDims.batchCoord_eq_zero _ _ _ (hob 1), GatherDims.offCoord_eq_zero _ _ _ hk1]
    unfold GatherDims.start
    rw [dif_pos hm1, siIdx_eq d h1 h6 b k _ 0 hl1, hti, hs1]
    show min i.val (N - 1) + 0 + 0 = i.val
    omega
  | ⟨2, _⟩ =>
    show d.start (ix2 b k) idx 2 + d.batchCoord (ix2 b k) 2 + d.offCoord (ix2 b k) 2 = j.val
    rw [GatherDims.batchCoord_eq_zero _ _ _ (hob 2), GatherDims.offCoord_eq_zero _ _ _ hk2]
    unfold GatherDims.start
    rw [dif_pos hm2, siIdx_eq d h1 h6 b k _ 1 hl2, htj, hs2]
    show min j.val (N - 1) + 0 + 0 = j.val
    omega

end Cert.LibGatherPair
-- ==== Proof.RefValue.lean ====
/-
  The reference's result, entry by entry: entry `(b, k)` is the Gram entry of batch row `b` at the `k`-th pair, that
  is the dot product over the 128 lanes of the two features the pair names.
-/
import proofs.«154655_j39891656245395_1_alg».proof.Proof.RefTerm
import proofs.«154655_j39891656245395_1_alg».proof.Proof.Spec
import proofs.«154655_j39891656245395_1_alg».proof.Proof.IndexTable
import proofs.«154655_j39891656245395_1_alg».proof.Proof.LibGatherPair
import Idealize.ShloMosaic.Lib.ValueIdx
import Idealize.ShloMosaic.Lib.Pipeline.Value
import Idealize.ShloMosaic.PureOps.Ideal.Laws

noncomputable section

/-! ## A batched product of two stacks of rows, read at an entry

For a dot whose dimension numbers are: one batch axis (axis 0 of both operands), the operands' rows (axis 1) kept, the
lanes (axis 2 of both) contracted — the result's axes being batch, left row, right row — the left operand's index at
result entry `(b, p, q)` and contraction position `k` is `(b, p, k)` and the right operand's is `(b, q, k)`. So on
the extended reals the product's entry `(b, p, q)` is `∑ k, l (b, p, k) * r (b, q, k)`. The dimension record is a
variable; its fields enter as hypotheses. -/

namespace Cert.BatchDot

open Idealize.ShloMosaic Idealize.ShloMosaic.ValueIdx

variable {B N M K : ℕ}
  (d : DotDims (⟨3, ![B, N, K]⟩ : Shape) (⟨3, ![B, M, K]⟩ : Shape) (⟨3, ![B, N, M]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's batch coordinate is the result's. -/
theorem lhs_batch (hlb : d.lhsBatch = [0]) (j : (⟨3, ![B, N, M]⟩ : Shape).Idx) (k : d.contr.Idx) :
    (d.lhsIdx j k 0).val = (j 0).val := by
  unfold DotDims.lhsIdx
  rw [dif_pos (by rw [hlb]; exact List.mem_singleton.mpr rfl)]
  simp only [Fin.val_cast]
  exact coord_congr j _ _ _ _ (by simp [hlb])

/-- The left operand's row is the result's second coordinate. -/
theorem lhs_row (hlb : d.lhsBatch = [0]) (hln : d.lhsNonContracting = [1])
    (j : (⟨3, ![B, N, M]⟩ : Shape).Idx) (k : d.contr.Idx) : (d.lhsIdx j k 1).val = (j 1).val := by
  unfold DotDims.lhsIdx
  rw [dif_neg (by rw [hlb]; show (1 : Fin 3) ∉ ([0] : List (Fin 3)); decide),
    dif_pos (by rw [hln]; exact List.mem_singleton.mpr rfl)]
  simp only [Fin.val_cast]
  exact coord_congr j _ _ _ _ (by simp [hlb, hln])

/-- The left operand's lane is the contraction position. -/
theorem lhs_lane (hlc : d.lhsContracting = [2]) (j : (⟨3, ![B, N, M]⟩ : Shape).Idx) (k : d.contr.Idx) :
    (d.lhsIdx j k 2).val = (k ⟨0, by rw [d.rank_contr, hlc]; exact Nat.one_pos⟩).val :=
  d.lhsIdx_val_of_single hlc j k

/-- The right operand's batch coordinate is the result's. -/
theorem rhs_batch (hrb : d.rhsBatch = [0]) (j : (⟨3, ![B, N, M]⟩ : Shape).Idx) (k : d.contr.Idx) :
    (d.rhsIdx j k 0).val = (j 0).val := by
  unfold DotDims.rhsIdx
  rw [dif_pos (by rw [hrb]; exact List.mem_singleton.mpr rfl)]
  simp only [Fin.val_cast]
  exact coord_congr j _ _ _ _ (by simp [hrb])

/-- The right operand's row is the result's third coordinate. -/
theorem rhs_row (hlb : d.lhsBatch = [0]) (hrb : d.rhsBatch = [0]) (hln : d.lhsNonContracting = [1])
    (hrn : d.rhsNonContracting = [1])
    (j : (⟨3, ![B, N, M]⟩ : Shape).Idx) (k : d.contr.Idx) : (d.rhsIdx j k 1).val = (j 2).val := by
  unfold DotDims.rhsIdx
  rw [dif_neg (by rw [hrb]; show (1 : Fin 3) ∉ ([0] : List (Fin 3)); decide),
    dif_pos (by rw [hrn]; exact List.mem_singleton.mpr rfl)]
  simp only [Fin.val_cast]
  exact coord_congr j _ _ _ _ (by simp [hlb, hln, hrn])

/-- The right operand's lane is the contraction position. -/
theorem rhs_lane (hrc : d.rhsContracting = [2]) (j : (⟨3, ![B, N, M]⟩ : Shape).Idx) (k : d.contr.Idx) :
    (d.rhsIdx j k 2).val = (k ⟨0, by rw [d.rank_contr, ← d.length_contracting, hrc]; exact Nat.one_pos⟩).val :=
  d.rhsIdx_val_of_single hrc j k

/-- The contraction shape has one axis, of extent `K`. -/
theorem contr_rank (hlc : d.lhsContracting = [2]) : d.contr.rank = 1 := by rw [d.rank_contr, hlc]; rfl

theorem contr_size (hlc : d.lhsContracting = [2]) :
    d.contr.size ⟨0, by rw [contr_rank d hlc]; exact Nat.one_pos⟩ = K := by
  rw [d.size_contr 0 (by rw [hlc]; exact Nat.one_pos)]
  simp [hlc]

/-- The sum over the dot's own contraction index, re-indexed by the lane `k : Fin K`, the operands read at
    `(b, p, k)` and `(b, q, k)`. -/
theorem sum_contr (hlc : d.lhsContracting = [2]) (hrc : d.rhsContracting = [2]) (hln : d.lhsNonContracting = [1])
    (hrn : d.rhsNonContracting = [1]) (hlb : d.lhsBatch = [0]) (hrb : d.rhsBatch = [0])
    (l : (⟨3, ![B, N, K]⟩ : Shape).Idx → EReal) (r : (⟨3, ![B, M, K]⟩ : Shape).Idx → EReal)
    (b : Fin B) (p : Fin N) (q : Fin M) :
    ∑ k : d.contr.Idx, l (d.lhsIdx (ix3 b p q) k) * r (d.rhsIdx (ix3 b p q) k)
      = ∑ k : Fin K, l (ix3 b p k) * r (ix3 b q k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix3 b p q) ((contrEquiv1 d K (contr_rank d hlc) (contr_size d hlc)).symm k) = ix3 b p k := by
    funext a; apply Fin.ext
    match a with
    | ⟨0, _⟩ => exact lhs_batch d hlb _ _
    | ⟨1, _⟩ => exact lhs_row d hlb hln _ _
    | ⟨2, _⟩ => exact (lhs_lane d hlc _ _).trans hk
  have er : d.rhsIdx (ix3 b p q) ((contrEquiv1 d K (contr_rank d hlc) (contr_size d hlc)).symm k) = ix3 b q k := by
    funext a; apply Fin.ext
    match a with
    | ⟨0, _⟩ => exact rhs_batch d hrb _ _
    | ⟨1, _⟩ => exact rhs_row d hlb hrb hln hrn _ _
    | ⟨2, _⟩ => exact (rhs_lane d hrc _ _).trans hk
  rw [el, er]

/-- The host's batched `dot_general`, at an entry, on the extended reals. -/
theorem dotGeneral_apply {φ₁ φ₂ : FTy} (hlc : d.lhsContracting = [2]) (hrc : d.rhsContracting = [2])
    (hln : d.lhsNonContracting = [1]) (hrn : d.rhsNonContracting = [1]) (hlb : d.lhsBatch = [0]) (hrb : d.rhsBatch = [0])
    (prec : Option ContractPrecision) (sched : HostSchedule)
    (l : FVec Ideal (⟨3, ![B, N, K]⟩ : Shape) φ₁) (r : FVec Ideal (⟨3, ![B, M, K]⟩ : Shape) φ₂)
    (b : Fin B) (p : Fin N) (q : Fin M) :
    FloatOps.dotGeneral d prec sched l r (ix3 b p q) = ∑ k : Fin K, l (ix3 b p k) * r (ix3 b q k) :=
  (Ideal.dotGeneral_apply d prec sched l r (ix3 b p q)).trans (sum_contr d hlc hrc hln hrn hlb hrb l r b p q)

end Cert.BatchDot

namespace Cert.ReferenceIdeal.Hand

open Idealize.ShloMosaic Idealize.ShloMosaic.ValueIdx Cert.ReferenceIdeal Cert.Interaction

/-- Feature `i` of batch row `b` in the stacked array. -/
theorem T_apply (a0 : FVec Ideal S16384x128 .f32) (a1 : FVec Ideal S16384x26x128 .f32)
    (b : Fin 16384) (i : Fin 27) (d : Fin 128) : T a0 a1 (ix3 b i d) = feat a0 a1 b i d := by
  unfold T feat
  by_cases h : i.val = 0
  · -- feature 0 lies in the first piece, the dense row spread over a unit axis
    rw [dif_pos h]
    refine (concatenate_pair_apply_left (t := S16384x27x128) (s₁ := S16384x1x128) (s₂ := S16384x26x128)
      (1 : Fin 3) _ a1 _ (ix3 b i d) rfl (ix3 b 0 d)
      (fun a => by
        match a with
        | ⟨0, _⟩ => rfl
        | ⟨1, _⟩ => exact h.symm
        | ⟨2, _⟩ => rfl)).trans ?_
    exact broadcastInDim_apply _ _ a0 _ (ix2 b d) (fun a => by
      match a with
      | ⟨0, _⟩ => exact (if_neg (by show ¬ (16384 : ℕ) = 1; decide)).symm
      | ⟨1, _⟩ => exact (if_neg (by show ¬ (128 : ℕ) = 1; decide)).symm)
  · -- feature `i ≥ 1` lies in the second piece, at row `i - 1`
    rw [dif_neg h]
    exact concatenate_pair_apply_right (t := S16384x27x128) (s₁ := S16384x1x128) (s₂ := S16384x26x128)
      (1 : Fin 3) _ a1 _ (ix3 b i d) rfl rfl
      (ix3 b ⟨i.val - 1, by have := i.isLt; omega⟩ d)
      (fun a ha => by
        match a, ha with
        | ⟨0, _⟩, _ => rfl
        | ⟨1, _⟩, ha => exact absurd rfl ha
        | ⟨2, _⟩, _ => rfl)
      (by show i.val - 1 + 1 = i.val; omega)

/-- A Gram entry is the dot product of two features. -/
theorem Z_apply (a0 : FVec Ideal S16384x128 .f32) (a1 : FVec Ideal S16384x26x128 .f32)
    (b : Fin 16384) (i j : Fin 27) :
    Z a0 a1 (ix3 b i j) = ∑ d : Fin 128, feat a0 a1 b i d * feat a0 a1 b j d := by
  unfold Z
  refine (Cert.BatchDot.dotGeneral_apply (B := 16384) (N := 27) (M := 27) (K := 128) _ rfl rfl rfl rfl rfl rfl none
    .single (T a0 a1) (T a0 a1) b i j).trans ?_
  exact Finset.sum_congr rfl fun d _ => by rw [T_apply, T_apply]

/-- The table's row `k`, first column, is the first column's source at `k`. -/
theorem pairIx_row (k : Fin 351) : pairIx Ideal (ix2 k 0) = rowIx Ideal (ix1 k) := by
  unfold pairIx
  refine (concatenate_pair_apply_left (t := S351x2) (s₁ := S351x1) (s₂ := S351x1)
    (1 : Fin 2) _ _ _ (ix2 k 0) rfl (ix2 k 0)
    (fun a => by
      match a with
      | ⟨0, _⟩ => rfl
      | ⟨1, _⟩ => rfl)).trans ?_
  exact broadcastInDim_apply _ _ (rowIx Ideal) _ (ix1 k) (fun a => by
    match a with
    | ⟨0, _⟩ => exact (if_neg (by show ¬ (351 : ℕ) = 1; decide)).symm)

/-- The table's row `k`, second column, is the second column's source at `k`. -/
theorem pairIx_col (k : Fin 351) : pairIx Ideal (ix2 k 1) = colIx Ideal (ix1 k) := by
  unfold pairIx
  refine (concatenate_pair_apply_right (t := S351x2) (s₁ := S351x1) (s₂ := S351x1)
    (1 : Fin 2) _ _ _ (ix2 k 1) rfl rfl (ix2 k 0)
    (fun a ha => by
      match a, ha with
      | ⟨0, _⟩, _ => rfl
      | ⟨1, _⟩, ha => exact absurd rfl ha)
    rfl).trans ?_
  exact broadcastInDim_apply _ _ (colIx Ideal) _ (ix1 k) (fun a => by
    match a with
    | ⟨0, _⟩ => exact (if_neg (by show ¬ (351 : ℕ) = 1; decide)).symm)

/-- A 32-bit word holding a number below 27 reads, signed, as that number. -/
theorem toInt_ofNat_lt27 (n : Fin 27) : (BitVec.ofNat 32 n.val).toInt = (n.val : Int) := by
  revert n; decide

/-- The reference's result is the specification. -/
theorem out_eq_G (a0 : FVec Ideal S16384x128 .f32) (a1 : FVec Ideal S16384x26x128 .f32) :
    out (F := Ideal) a0 a1 = G a0 a1 := by
  funext j
  obtain ⟨b, k, rfl⟩ : ∃ (b : Fin 16384) (k : Fin 351), j = ix2 b k := ⟨j 0, j 1, eq_ix2 j⟩
  rw [G_ix2]
  unfold out inter
  refine (Cert.LibGatherPair.gather_pair_apply (B := 16384) (N := 27) (K := 351) (w := 32) _ rfl rfl rfl rfl rfl rfl rfl
    (Z a0 a1) (pairIx Ideal) b k (rowOf k) (colOf k)
    (by rw [pairIx_row, rowIx_eq]; exact toInt_ofNat_lt27 _)
    (by rw [pairIx_col, colIx_eq]; exact toInt_ofNat_lt27 _)).trans ?_
  exact Z_apply a0 a1 b (rowOf k) (colOf k)

end Cert.ReferenceIdeal.Hand

end
-- ==== Proof.lean ====
/-
  The certificate: a pairwise feature-interaction kernel against its jnp reference, over the extended reals.

  Per batch row there are 27 feature vectors of 128 lanes (the dense row and 26 embedding rows); the result holds, for
  every pair of features `i < j` in row-major order of the pairs, their dot product: 351 columns. The kernel forms each
  dot product as the lane sum of an elementwise product and stores the 351 columns side by side, 512 batch rows per grid
  point. The reference stacks the features, takes the batched Gram matrix and gathers the strict upper triangle
  through an index table it computes on the host from constants (jnp's `triu_indices`). Both are the one function `G`
  of the argument arrays (Proof/Spec.lean): the kernel by Proof/KerBlock.lean and Proof/KerArray.lean, the reference by
  its run (Proof/RefRun.lean), the evaluated index table (Proof/IndexTable.lean) and the Gram entries read as sums
  (Proof/RefValue.lean). A sum of products is the same extended real on both sides as it stands: no law of the
  extended reals beyond the terms' identity is used, and the precondition is never opened.
-/
import proofs.«154655_j39891656245395_1_alg».proof.Defs
import proofs.«154655_j39891656245395_1_alg».proof.Proof.Gen.Kernel
import proofs.«154655_j39891656245395_1_alg».proof.Proof.FrameK
import proofs.«154655_j39891656245395_1_alg».proof.Proof.Gen.KernelIdeal
import proofs.«154655_j39891656245395_1_alg».proof.Proof.FrameKI
import proofs.«154655_j39891656245395_1_alg».proof.Proof.Gen.ReferenceIdeal
import proofs.«154655_j39891656245395_1_alg».proof.Proof.Gen.Pre_finite_inputs
import proofs.«154655_j39891656245395_1_alg».proof.Proof.KerArray
import proofs.«154655_j39891656245395_1_alg».proof.Proof.RefRun
import proofs.«154655_j39891656245395_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end at the specification `G` of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.ReferenceIdeal.Hand.out_eq_G _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
